-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v8)) (v7 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v8) = v6 c
          ∧ r.2.mem ((c.tc : Thread Cert.KernelIdeal.nD Cert.KernelIdeal.τ).loc Cert.KernelIdeal.main_v5_0) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_v33) = v6 c
          ∧ r.2.mem ((c.tc : Thread Cert.ReferenceIdeal.nD Cert.ReferenceIdeal.τ).loc Cert.ReferenceIdeal.main_v11) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x1 .f32) (main_arg9 : FVec F S1 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S10000x1 : Shape := ⟨2, ![10000, 1]⟩
abbrev S400x10000 : Shape := ⟨2, ![400, 10000]⟩
abbrev S400x128 : Shape := ⟨2, ![400, 128]⟩
abbrev S400x1 : Shape := ⟨2, ![400, 1]⟩
abbrev S10000 : Shape := ⟨1, ![10000]⟩
abbrev S_ : Shape := ⟨0, ![]⟩

abbrev nBuf : Space → Nat
  | .hbm => 24
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x1, .f32⟩
  | .hbm, ⟨16, _⟩ => ⟨S1x1, .f32⟩
  | .hbm, ⟨17, _⟩ => ⟨S10000x128, .f32⟩
  | .hbm, ⟨18, _⟩ => ⟨S10000x1, .f32⟩
  | .hbm, ⟨19, _⟩ => ⟨S10000x1, .f32⟩
  | .hbm, ⟨20, _⟩ => ⟨S10000, .f32⟩
  | .hbm, ⟨21, _⟩ => ⟨S10000, .f32⟩
  | .hbm, ⟨22, _⟩ => ⟨S_, .f32⟩
  | .hbm, ⟨23, _⟩ => ⟨S10000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x1, .f32⟩
  | .local _ .vmem, ⟨10, _⟩ => ⟨S1x1, .f32⟩
  | .local _ .vmem, ⟨11, _⟩ => ⟨S128x1, .f32⟩
  | .local _ .vmem, ⟨12, _⟩ => ⟨S1x1, .f32⟩
  | .local _ .vmem, ⟨13, _⟩ => ⟨S400x128, .f32⟩
  | .local _ .vmem, ⟨14, _⟩ => ⟨S400x128, .f32⟩
  | .local _ .vmem, ⟨15, _⟩ => ⟨S400x1, .f32⟩
  | .local _ .vmem, ⟨16, _⟩ => ⟨S400x1, .f32⟩
  | .local _ .vmem, ⟨17, _⟩ => ⟨S400x1, .f32⟩
  | .local _ .vmem, ⟨18, _⟩ => ⟨S400x1, .f32⟩
  | .local _ .vmem, ⟨19, _⟩ => ⟨S10000x128, .f32⟩
  | .local _ .vmem, ⟨20, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_off1 (i : grid0.Coords) : Fin 2 → Nat :=
  let arg1 : BitVec 32 := BitVec.ofNat 32 (i 1).val
  let c400_i32 : BitVec 32 := 400#32
  let v25 : BitVec 32 := Scalar.muli arg1 c400_i32
  let v26 : Index := Scalar.indexCast v25
  let c0_14 : Index := 0#32
  ![v26.toNat, 0]
def k0_cond4 (i : grid0.Coords) : BitVec 1 :=
  let arg0 : BitVec 32 := BitVec.ofNat 32 (i 0).val
  let c1_i32_9 : BitVec 32 := 1#32
  let v16 : BitVec 1 := Scalar.cmpi .eq arg0 c1_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S400x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S400x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S400x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  shapeCasts_S10000x1_S10000 : S10000x1.ShapeCasts S10000
  bcast_S_S10000 : S_.BroadcastsInDim S10000 (![] : Fin 0 → Fin S10000.rank)
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x1_S400x1_1_0_0_1_n_n_wf : DotDims.WF S400x128 S128x1 S400x1 [1] [0] [0] [1] [] []
  hrank0 : 0 < grid0.rank
  k0_off1_inb : ∀ i : grid0.Coords, ∀ (k0_h3 : k0_cond3 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S400x128.size a ≤ S10000x128.size a
  hwx0_12 : ∀ i : grid0.Coords, EltTy.bits .f32 = 32 ∨ (Rect.block (s := S10000x128) S400x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S400x1.size a ≤ S10000x1.size a
  hwx0_13 : ∀ i : grid0.Coords, EltTy.bits .f32 = 32 ∨ (Rect.block (s := S10000x1) S400x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S400x1.size a ≤ S10000x1.size a
  hwx0_14 : ∀ i : grid0.Coords, EltTy.bits .f32 = 32 ∨ (Rect.block (s := S10000x1) S400x1.size (cc0_transform_14 i) (hinb0_14 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x1_S400x1_1_0_0_1_n_n : DotDims S400x128 S128x1 S400x1 where
  lhsContracting := [1]
  rhsContracting := [0]
  lhsNonContracting := [0]
  rhsNonContracting := [1]
  lhsBatch := []
  rhsBatch := []
  wf := dot_S400x128_S128x1_S400x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5_0) S400x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_1) S400x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_2) S400x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond4 i == 1#1) | 13 => fun i => !(k0_cond4 i == 1#1) | 14 => fun i => !(k0_cond4 i == 1#1) | ⟨_ + 15, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩
abbrev S10000 : Shape := ⟨1, ![10000]⟩

abbrev nBuf : Space → Nat
  | .hbm => 55
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S10000x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x1, .f32⟩
  | .hbm, ⟨36, _⟩ => ⟨S1x1, .f32⟩
  | .hbm, ⟨37, _⟩ => ⟨S10000x1, .f32⟩
  | .hbm, ⟨38, _⟩ => ⟨S10000x1, .f32⟩
  | .hbm, ⟨39, _⟩ => ⟨S10000, .f32⟩
  | .hbm, ⟨40, _⟩ => ⟨S10000x1, .f32⟩
  | .hbm, ⟨41, _⟩ => ⟨S1x1, .f32⟩
  | .hbm, ⟨42, _⟩ => ⟨S10000x1, .f32⟩
  | .hbm, ⟨43, _⟩ => ⟨S10000x1, .f32⟩
  | .hbm, ⟨44, _⟩ => ⟨S10000, .f32⟩
  | .hbm, ⟨45, _⟩ => ⟨S10000, .f32⟩
  | .hbm, ⟨46, _⟩ => ⟨S10000, .f32⟩
  | .hbm, ⟨47, _⟩ => ⟨S_, .f32⟩
  | .hbm, ⟨48, _⟩ => ⟨S10000, .f32⟩
  | .hbm, ⟨49, _⟩ => ⟨S10000, .f32⟩
  | .hbm, ⟨50, _⟩ => ⟨S_, .f32⟩
  | .hbm, ⟨51, _⟩ => ⟨S10000, .f32⟩
  | .hbm, ⟨52, _⟩ => ⟨S10000, .f32⟩
  | .hbm, ⟨53, _⟩ => ⟨S_, .f32⟩
  | .hbm, ⟨54, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call2_cst : Ref sig .tc := ⟨.hbm, 32, rfl⟩
abbrev main_call2_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_cst_0 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  bcast_S_S10000 : S_.BroadcastsInDim S10000 (![] : Fin 0 → Fin S10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.KSetup.lean ====
import proofs.«134749_g33749853012156_cont_8to1_b_320_18_alg».proof.Proof.Gen.Kernel.Frame
import proofs.«134749_g33749853012156_cont_8to1_b_320_18_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branch conditions, as the skeleton spells them, and where on the grid each holds

The grid is 2 × 25, point `t` having coordinates `(t / 25, t % 25)`: the first coordinate is the phase (0: the first
graph-convolution layer is formed into scratch; 1: the second layer and the two heads are formed into the outputs), the
second the band of 400 adjacency rows. -/

/-- "phase 0 and band 0": the input features are projected by the first weight into the shared scratch. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "phase 1 and band 0": the first layer is projected by the second weight into the shared scratch. -/
abbrev cond2 (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
/-- "phase 0": the band of the first layer is stored into its scratch. -/
abbrev cond3 (i : grid0.Coords) : Prop := k0_cond3 i = 1#1
/-- "phase 1": the band of the second layer and of the heads is stored into the outputs. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 25 :=
  (by decide +kernel : ∀ t : Fin grid0.N, cond2 (grid0.coords t) ↔ t.val = 25)
theorem hcond3 : ∀ t : Fin cfg0.N, cond3 (grid0.coords t) ↔ t.val < 25 :=
  (by decide +kernel : ∀ t : Fin grid0.N, cond3 (grid0.coords t) ↔ t.val < 25)
theorem hcond4 : ∀ t : Fin cfg0.N, cond4 (grid0.coords t) ↔ 25 ≤ t.val :=
  (by decide +kernel : ∀ t : Fin grid0.N, cond4 (grid0.coords t) ↔ 25 ≤ t.val)

/-- The band's first row in the first layer's scratch: 400 times the band. -/
theorem off1_eq : ∀ t : Fin cfg0.N, k0_off1 (grid0.coords t) = ![400 * (t.val % 25), 0] :=
  (by decide +kernel : ∀ t : Fin grid0.N, k0_off1 (grid0.coords t) = ![400 * (t.val % 25), 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem idle12 : ∀ t : Fin cfg0.N, ¬cond4 (grid0.coords t) → cfg0.idle 12 (grid0.coords t) = true := by decide +kernel
theorem noFlush12 : ∀ t : Fin cfg0.N, ¬cond4 (grid0.coords t) → (cfg0.win 12).flush t = false := by decide +kernel
theorem live12 : ∀ t : Fin cfg0.N, cond4 (grid0.coords t) → cfg0.idle 12 (grid0.coords t) = false := by decide +kernel
theorem idle13 : ∀ t : Fin cfg0.N, ¬cond4 (grid0.coords t) → cfg0.idle 13 (grid0.coords t) = true := by decide +kernel
theorem noFlush13 : ∀ t : Fin cfg0.N, ¬cond4 (grid0.coords t) → (cfg0.win 13).flush t = false := by decide +kernel
theorem live13 : ∀ t : Fin cfg0.N, cond4 (grid0.coords t) → cfg0.idle 13 (grid0.coords t) = false := by decide +kernel
theorem idle14 : ∀ t : Fin cfg0.N, ¬cond4 (grid0.coords t) → cfg0.idle 14 (grid0.coords t) = true := by decide +kernel
theorem noFlush14 : ∀ t : Fin cfg0.N, ¬cond4 (grid0.coords t) → (cfg0.win 14).flush t = false := by decide +kernel
theorem live14 : ∀ t : Fin cfg0.N, cond4 (grid0.coords t) → cfg0.idle 14 (grid0.coords t) = false := by decide +kernel

/-! ## The staging memrefs the body is called with, and the two scratch buffers -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S400x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S400x1 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S400x1 .f32 := win0_14.stage (cfg0.slots t 14)
abbrev hs14 (t : Fin cfg0.N) : (ms14 t).IsWhole := hstage0_14 ((cfg0.slots t 14).cast nbuf0_14)
/-- The shared scratch: the projected features of the current phase. -/
abbrev scM0 : Memref sig .tc .vmem S10000x128 .f32 := Memref.whole cc0_scratch0
/-- The first layer, one band of 400 rows per point of phase 0. -/
abbrev scM1 : Memref sig .tc .vmem S10000x128 .f32 := Memref.whole cc0_scratch1

/-- The class invariant with the two scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Hand

end
-- ==== Proof.KRunA.lean ====
import proofs.«134749_g33749853012156_cont_8to1_b_320_18_alg».proof.Proof.KSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the input features are projected by the first weight into the shared scratch (stored whole), and the first band of adjacency rows times that projection, plus the bias row, rectified, is stored over the band's rows of the first layer's scratch. The pieces written are found by the run. -/
noncomputable def kernelRun_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x0 : Vec F S400x10000 .f32) (x1 : Vec F S10000x128 .f32) (x2 : Vec F S128x128 .f32) (x3 : Vec F S1x128 .f32) (xs0 : Vec F S10000x128 .f32) (xs1 : Vec F S10000x128 .f32) :
    Σ' (LS0 : List (View.Piece (Elt F) S10000x128 .f32)), { LS1 : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H17]; · iexact H17
    iexact H18

end Cert.Kernel.Hand

end
-- ==== Proof.KRunB.lean ====
import proofs.«134749_g33749853012156_cont_8to1_b_320_18_alg».proof.Proof.KSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later point of phase 0: the band of adjacency rows times the projected features held in the shared scratch, plus the bias row, rectified, is stored over the band's rows of the first layer's scratch; nothing else is written. The pieces written are found by the run. -/
noncomputable def kernelRun_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i) (x0 : Vec F S400x10000 .f32) (x3 : Vec F S1x128 .f32) (xs0 : Vec F S10000x128 .f32) (xs1 : Vec F S10000x128 .f32) :
    { LS1 : List (View.Piece (Elt F) S10000x128 .f32) //
      ∀ (E : Set ℕ) (K : PUnit → sProp 𝕄),
        iprop(owns (c : Thread nD τ) arg2 fullShare x0 ∗ owns (c : Thread nD τ) arg5 fullShare x3 ∗ owns (c : Thread nD τ) arg17 fullShare xs0 ∗ owns (c : Thread nD τ) arg18 fullShare xs1
            ∗ (iprop(owns (c : Thread nD τ) arg2 fullShare x0 ∗ owns (c : Thread nD τ) arg5 fullShare x3 ∗ owns (c : Thread nD τ) arg17 fullShare xs0 ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__body_eq_skeleton]; unfold cc0__body_skel
    unfold owns
    iintro ⟨⟨%f2, %hf2, H2⟩, ⟨%f5, %hf5, H5⟩, ⟨%f17, %hf17, H17⟩, ⟨%f18, %hf18, H18⟩, Hk⟩
    obtain rfl := harg2.eq_unread hf2; obtain rfl := harg5.eq_unread hf5; obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H5]
    · iexists _; isplitr; · ipureintro; exact harg5.read_unread _
      iexact H5
    isplitl [H17]
    · iexists _; isplitr; · ipureintro; exact harg17.read_unread _
      iexact H17
    iexact H18

end Cert.Kernel.Hand

end
-- ==== Proof.KRunC.lean ====
import proofs.«134749_g33749853012156_cont_8to1_b_320_18_alg».proof.Proof.KSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of phase 1: the first layer, read whole from its scratch, is projected by the second weight into the shared scratch (stored whole); the first band of adjacency rows times that projection, plus the bias row, rectified, is the band of the representation, stored whole into its output buffer, and the two heads of that band are stored whole into theirs. The pieces written are found by the run. -/
noncomputable def kernelRun_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    Σ' (L12 : List (View.Piece (Elt F) S400x128 .f32)), Σ' (L13 : List (View.Piece (Elt F) S400x1 .f32)), Σ' (L14 : List (View.Piece (Elt F) S400x1 .f32)), { LS0 : List (View.Piece (Elt F) S10000x128 .f32) //
      ∀ (E : Set ℕ) (K : PUnit → sProp 𝕄),
        iprop(owns (c : Thread nD τ) arg2 fullShare x0 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xo13 ∗ owns (c : Thread nD τ) arg16 fullShare xo14 ∗ owns (c : Thread nD τ) arg17 fullShare xs0 ∗ owns (c : Thread nD τ) arg18 fullShare xs1
            ∗ (iprop(owns (c : Thread nD τ) arg2 fullShare x0 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (arg14.view.loc (c : Thread nD τ) ↦[arg14.view.set]{fullShare} arg14.view.writes (Elt F) (harg14.unread xo12) L12) ∗ (arg15.view.loc (c : Thread nD τ) ↦[arg15.view.set]{fullShare} arg15.view.writes (Elt F) (harg15.unread xo13) L13) ∗ (arg16.view.loc (c : Thread nD τ) ↦[arg16.view.set]{fullShare} arg16.view.writes (Elt F) (harg16.unread xo14) L14) ∗ (arg17.view.loc (c : Thread nD τ) ↦[arg17.view.set]{fullShare} arg17.view.writes (Elt F) (harg17.unread xs0) LS0) ∗ owns (c : Thread nD τ) arg18 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__body_eq_skeleton]; unfold cc0__body_skel
    unfold owns
    iintro ⟨⟨%f2, %hf2, H2⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    iexists _; isplitr; · ipureintro; exact harg18.read_unread _
    iexact H18

end Cert.Kernel.Hand

end
-- ==== Proof.KRunD.lean ====
import proofs.«134749_g33749853012156_cont_8to1_b_320_18_alg».proof.Proof.KSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later point of phase 1: the band of adjacency rows times the projection held in the shared scratch, plus the bias row, rectified, is the band of the representation, stored whole into its output buffer, and the two heads of that band are stored whole into theirs. The pieces written are found by the run. -/
noncomputable def kernelRun_D (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    Σ' (L12 : List (View.Piece (Elt F) S400x128 .f32)), Σ' (L13 : List (View.Piece (Elt F) S400x1 .f32)), { L14 : List (View.Piece (Elt F) S400x1 .f32) //
      ∀ (E : Set ℕ) (K : PUnit → sProp 𝕄),
        iprop(owns (c : Thread nD τ) arg2 fullShare x0 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xo13 ∗ owns (c : Thread nD τ) arg16 fullShare xo14 ∗ owns (c : Thread nD τ) arg17 fullShare xs0
            ∗ (iprop(owns (c : Thread nD τ) arg2 fullShare x0 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (arg14.view.loc (c : Thread nD τ) ↦[arg14.view.set]{fullShare} arg14.view.writes (Elt F) (harg14.unread xo12) L12) ∗ (arg15.view.loc (c : Thread nD τ) ↦[arg15.view.set]{fullShare} arg15.view.writes (Elt F) (harg15.unread xo13) L13) ∗ (arg16.view.loc (c : Thread nD τ) ↦[arg16.view.set]{fullShare} arg16.view.writes (Elt F) (harg16.unread xo14) L14) ∗ owns (c : Thread nD τ) arg17 fullShare xs0) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__body_eq_skeleton]; unfold cc0__body_skel
    unfold owns
    iintro ⟨⟨%f2, %hf2, H2⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | exact hc1 | exact hc2 | exact hc3 | exact hc4)
    sl_step
    iapply Hk
    isplitl [H2]
    · iexists _; isplitr; · ipureintro; exact harg2.read_unread _
      iexact H2
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    iexists _; isplitr; · ipureintro; exact harg17.read_unread _
    iexact H17

end Cert.Kernel.Hand

end
-- ==== Proof.KData.lean ====
import proofs.«134749_g33749853012156_cont_8to1_b_320_18_alg».proof.Proof.KSetup
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, each at its literal type -/

/-- Window 0's block at point `t`: the point's band of 400 adjacency rows. -/
abbrev adjB (c : Dev nD) (t : Fin cfg0.N) : Vec F S400x10000 .f32 := iblk m c 0 t
/-- Window 1's block at point `t`: the input features. -/
abbrev xB (c : Dev nD) (t : Fin cfg0.N) : Vec F S10000x128 .f32 := iblk m c 1 t
/-- Window 2's block at point `t`: the first weight. -/
abbrev w1B (c : Dev nD) (t : Fin cfg0.N) : Vec F S128x128 .f32 := iblk m c 2 t
/-- Window 3's block at point `t`: the first bias, as a row. -/
abbrev b1B (c : Dev nD) (t : Fin cfg0.N) : Vec F S1x128 .f32 := iblk m c 3 t
/-- Window 4's block at point `t`: the second weight. -/
abbrev w2B (c : Dev nD) (t : Fin cfg0.N) : Vec F S128x128 .f32 := iblk m c 4 t
/-- Window 5's block at point `t`: the second bias, as a row. -/
abbrev b2B (c : Dev nD) (t : Fin cfg0.N) : Vec F S1x128 .f32 := iblk m c 5 t
/-- Window 6's block at point `t`: the effect head's hidden weight. -/
abbrev wt1B (c : Dev nD) (t : Fin cfg0.N) : Vec F S128x128 .f32 := iblk m c 6 t
/-- Window 7's block at point `t`: the effect head's hidden bias, as a row. -/
abbrev bt1B (c : Dev nD) (t : Fin cfg0.N) : Vec F S1x128 .f32 := iblk m c 7 t
/-- Window 8's block at point `t`: the effect head's output weight. -/
abbrev wt2B (c : Dev nD) (t : Fin cfg0.N) : Vec F S128x1 .f32 := iblk m c 8 t
/-- Window 9's block at point `t`: the effect head's output bias. -/
abbrev bt2B (c : Dev nD) (t : Fin cfg0.N) : Vec F S1x1 .f32 := iblk m c 9 t
/-- Window 10's block at point `t`: the propensity head's weight. -/
abbrev wpB (c : Dev nD) (t : Fin cfg0.N) : Vec F S128x1 .f32 := iblk m c 10 t
/-- Window 11's block at point `t`: the propensity head's bias. -/
abbrev bpB (c : Dev nD) (t : Fin cfg0.N) : Vec F S1x1 .f32 := iblk m c 11 t

/-- The first point of phase 0 and the first point of phase 1. -/
abbrev t0 : Fin cfg0.N := ⟨0, by rw [show cfg0.N = 50 from N_0]; omega⟩
abbrev t25 : Fin cfg0.N := ⟨25, by rw [show cfg0.N = 50 from N_0]; omega⟩

/-! ## What the kernel holds in its scratch buffers and leaves in its output buffers

Phase 0 forms `S1 = x · W1` once (at its first point) and then, band by band, the first layer
`H1 = max (adj · S1 + b1) 0`; phase 1 forms `S2 = H1 · W2` once and then, band by band, the representation
`max (adj · S2 + b2) 0` and the two heads of that band. Each is the kernel's own payload term of the blocks. -/

/-- The input features projected by the first weight. -/
def S1 (c : Dev nD) : Vec F S10000x128 .f32 := k0_pay1 (xB m c t0) (w1B m c t0)

/-- The band of the first layer a point of phase 0 stores. -/
def H1band (c : Dev nD) (t : Fin cfg0.N) : Vec F S400x128 .f32 := k0_pay4 (adjB m c t) (S1 m c) (b1B m c t)

/-- The point of phase 0 whose band holds row `r`. -/
def bandPt (r : Nat) (hr : r < 10000) : Fin cfg0.N := ⟨r / 400, by rw [show cfg0.N = 50 from N_0]; omega⟩

/-- The first layer whole: row `r` is row `r % 400` of the band of point `r / 400`. -/
def H1 (c : Dev nD) : Vec F S10000x128 .f32 := fun j =>
  H1band m c (bandPt (j 0).val (j 0).isLt) (Idealize.ShloMosaic.ValueIdx.ix2 ⟨(j 0).val % 400, Nat.mod_lt _ (by decide)⟩ (j 1))

/-- The first layer projected by the second weight. -/
def S2 (c : Dev nD) : Vec F S10000x128 .f32 := k0_pay2 (H1 m c) (w2B m c t25)

/-- The band of the representation a point of phase 1 stores, -/
def repBand (c : Dev nD) (t : Fin cfg0.N) : Vec F S400x128 .f32 := k0_pay5 (adjB m c t) (S2 m c) (b2B m c t)
/-- of the effect head, -/
def tauBand (c : Dev nD) (t : Fin cfg0.N) : Vec F S400x1 .f32 :=
  k0_pay6 (adjB m c t) (S2 m c) (b2B m c t) (wt1B m c t) (bt1B m c t) (wt2B m c t) (bt2B m c t)
/-- and of the propensity head. -/
def eBand (c : Dev nD) (t : Fin cfg0.N) : Vec F S400x1 .f32 :=
  k0_pay7 (adjB m c t) (S2 m c) (b2B m c t) (wpB m c t) (bpB m c t)

/-- After `n` points of phase 0 the first layer's scratch holds the layer on its first `400 · n` rows
    (the other rows hold whatever they held). -/
def rowsDone (c : Dev nD) (n : ℕ) (h : Vec F S10000x128 .f32) : Prop :=
  ∀ j : S10000x128.Idx, (j 0).val < 400 * n → h j = H1 m c j

end Cert.Kernel.Hand

end
-- ==== Proof.KPieces.lean ====
/- What each whole-body run of the kernel leaves: the list of stores into each buffer is one store of the
   payload term of the loaded blocks, over the band's rows or over the whole buffer; how a buffer reads back
   after one such store; and how the first layer's scratch fills, one band of 400 rows per point. -/
import proofs.«134749_g33749853012156_cont_8to1_b_320_18_alg».proof.Proof.KRunA
import proofs.«134749_g33749853012156_cont_8to1_b_320_18_alg».proof.Proof.KRunB
import proofs.«134749_g33749853012156_cont_8to1_b_320_18_alg».proof.Proof.KRunC
import proofs.«134749_g33749853012156_cont_8to1_b_320_18_alg».proof.Proof.KRunD
import proofs.«134749_g33749853012156_cont_8to1_b_320_18_alg».proof.Proof.KData
import Idealize.ShloMosaic.Lib.Pipeline.FrameBody
import Idealize.ShloMosaic.Lib.Pipeline.Value
import Idealize.ShloMosaic.Lib.Writes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle, as the constant function. -/
theorem hz2 : (![0, 0] : Fin 2 → ℕ) = fun _ => 0 := by
  funext a; match a with | ⟨0, _⟩ => rfl | ⟨1, _⟩ => rfl

/-! ## The stores each run leaves, as payloads of the values owned before the run -/

theorem piecesB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i) (x0 : Vec F S400x10000 .f32) (x3 : Vec F S1x128 .f32) (xs0 : Vec F S10000x128 .f32) (xs1 : Vec F S10000x128 .f32) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x3 xs0 xs1).1 = [⟨Rect.unit (s := S10000x128) (k0_off1 i) S400x128.size (k0_off1_inb i hc3), k0_pay4 x0 xs0 x3⟩] := by
  unfold kernelRun_B; dsimp only
  simp only [View.readAt_eq_ld, harg2.read_unread, harg17.read_unread, harg5.read_unread, View.ld_unit_zero (S := S400x10000) hz2, View.ld_unit_zero (S := S10000x128) hz2, View.ld_unit_zero (S := S1x128) hz2]

theorem piecesA_s0 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x0 : Vec F S400x10000 .f32) (x1 : Vec F S10000x128 .f32) (x2 : Vec F S128x128 .f32) (x3 : Vec F S1x128 .f32) (xs0 : Vec F S10000x128 .f32) (xs1 : Vec F S10000x128 .f32) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x1 x2 x3 xs0 xs1).1 = [⟨Rect.unit (s := S10000x128) ![0, 0] S10000x128.size inb_S10000x128_S10000x128_0_0, k0_pay1 x1 x2⟩] := by
  unfold kernelRun_A; dsimp only
  unfold kernelRun_A.sl.H17_1
  simp only [View.readAt_eq_ld, harg3.read_unread, harg4.read_unread, View.ld_unit_zero (S := S10000x128) hz2, View.ld_unit_zero (S := S128x128) hz2]

theorem piecesA_s1 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x0 : Vec F S400x10000 .f32) (x1 : Vec F S10000x128 .f32) (x2 : Vec F S128x128 .f32) (x3 : Vec F S1x128 .f32) (xs0 : Vec F S10000x128 .f32) (xs1 : Vec F S10000x128 .f32) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x1 x2 x3 xs0 xs1).2.1 = [⟨Rect.unit (s := S10000x128) (k0_off1 i) S400x128.size (k0_off1_inb i hc3), k0_pay4 x0 (k0_pay1 x1 x2) x3⟩] := by
  unfold kernelRun_A; dsimp only
  unfold kernelRun_A.sl.v11 kernelRun_A.sl.H17_1
  simp only [View.readAt_eq_ld, harg2.read_unread, harg3.read_unread, harg4.read_unread, harg5.read_unread, harg17.read_unread, View.ld_unit_zero (S := S400x10000) hz2, View.ld_unit_zero (S := S10000x128) hz2, View.ld_unit_zero (S := S128x128) hz2, View.ld_unit_zero (S := S1x128) hz2, View.readCov_unit_zero (S := S10000x128) _ hz2]

theorem piecesC_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).1 = [⟨Rect.unit (s := S400x128) ![0, 0] S400x128.size inb_S400x128_S400x128_0_0, k0_pay5 x0 (k0_pay2 xs1 x4) x5⟩] := by
  unfold kernelRun_C; dsimp only
  unfold kernelRun_C.sl.v11 kernelRun_C.sl.H17_1
  simp only [View.readAt_eq_ld, harg2.read_unread, harg6.read_unread, harg7.read_unread, harg17.read_unread, harg18.read_unread, View.ld_unit_zero (S := S400x10000) hz2, View.ld_unit_zero (S := S10000x128) hz2, View.ld_unit_zero (S := S128x128) hz2, View.ld_unit_zero (S := S1x128) hz2, View.readCov_unit_zero (S := S10000x128) _ hz2]

theorem piecesC_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).2.1 = [⟨Rect.unit (s := S400x1) ![0, 0] S400x1.size inb_S400x1_S400x1_0_0, k0_pay6 x0 (k0_pay2 xs1 x4) x5 x6 x7 x8 x9⟩] := by
  unfold kernelRun_C; dsimp only
  unfold kernelRun_C.sl.v11 kernelRun_C.sl.H17_1
  simp only [View.readAt_eq_ld, harg2.read_unread, harg6.read_unread, harg7.read_unread, harg8.read_unread, harg9.read_unread, harg10.read_unread, harg11.read_unread, harg17.read_unread, harg18.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.readCov_unit_zero (S := S10000x128) _ hz2]

theorem piecesC_14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).2.2.1 = [⟨Rect.unit (s := S400x1) ![0, 0] S400x1.size inb_S400x1_S400x1_0_0, k0_pay7 x0 (k0_pay2 xs1 x4) x5 x10 x11⟩] := by
  unfold kernelRun_C; dsimp only
  unfold kernelRun_C.sl.v11 kernelRun_C.sl.H17_1
  simp only [View.readAt_eq_ld, harg2.read_unread, harg6.read_unread, harg7.read_unread, harg12.read_unread, harg13.read_unread, harg17.read_unread, harg18.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.readCov_unit_zero (S := S10000x128) _ hz2]

theorem piecesC_s0 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).2.2.2.1 = [⟨Rect.unit (s := S10000x128) ![0, 0] S10000x128.size inb_S10000x128_S10000x128_0_0, k0_pay2 xs1 x4⟩] := by
  unfold kernelRun_C; dsimp only
  unfold kernelRun_C.sl.H17_1
  simp only [View.readAt_eq_ld, harg6.read_unread, harg18.read_unread, View.ld_unit_zero (S := S10000x128) hz2, View.ld_unit_zero (S := S128x128) hz2]

theorem piecesD_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    (kernelRun_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x5 x6 x7 x8 x9 x10 x11 xo12 xo13 xo14 xs0).1 = [⟨Rect.unit (s := S400x128) ![0, 0] S400x128.size inb_S400x128_S400x128_0_0, k0_pay5 x0 xs0 x5⟩] := by
  unfold kernelRun_D; dsimp only
  simp only [View.readAt_eq_ld, harg2.read_unread, harg7.read_unread, harg17.read_unread, View.ld_unit_zero (S := S400x10000) hz2, View.ld_unit_zero (S := S10000x128) hz2, View.ld_unit_zero (S := S1x128) hz2]

theorem piecesD_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    (kernelRun_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x5 x6 x7 x8 x9 x10 x11 xo12 xo13 xo14 xs0).2.1 = [⟨Rect.unit (s := S400x1) ![0, 0] S400x1.size inb_S400x1_S400x1_0_0, k0_pay6 x0 xs0 x5 x6 x7 x8 x9⟩] := by
  unfold kernelRun_D; dsimp only
  simp only [View.readAt_eq_ld, harg2.read_unread, harg7.read_unread, harg8.read_unread, harg9.read_unread, harg10.read_unread, harg11.read_unread, harg17.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2]

theorem piecesD_14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    (kernelRun_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x5 x6 x7 x8 x9 x10 x11 xo12 xo13 xo14 xs0).2.2.1 = [⟨Rect.unit (s := S400x1) ![0, 0] S400x1.size inb_S400x1_S400x1_0_0, k0_pay7 x0 xs0 x5 x10 x11⟩] := by
  unfold kernelRun_D; dsimp only
  simp only [View.readAt_eq_ld, harg2.read_unread, harg7.read_unread, harg12.read_unread, harg13.read_unread, harg17.read_unread, View.ld_unit_zero (S := S400x10000) hz2, View.ld_unit_zero (S := S10000x128) hz2, View.ld_unit_zero (S := S1x128) hz2, View.ld_unit_zero (S := S128x1) hz2, View.ld_unit_zero (S := S1x1) hz2]

/-! ## Reading a buffer back after one store -/

/-- After one store over the whole of a rank-2 buffer, the buffer reads as the stored payload. -/
theorem read_whole_store {d : Fin 2 → ℕ} (M : Memref sig .tc .vmem ⟨2, d⟩ .f32) (f : M.view.ty.Contents (Elt F))
    (inb : ∀ a, (![0, 0] : Fin 2 → ℕ) a + (⟨2, d⟩ : Shape).size a ≤ (⟨2, d⟩ : Shape).size a) (w : (⟨2, d⟩ : Shape).Idx → Elt F .f32) :
    M.view.read (Elt F) (M.view.writes (Elt F) f [⟨Rect.unit (s := ⟨2, d⟩) ![0, 0] (⟨2, d⟩ : Shape).size inb, w⟩]) = w := by
  rw [View.read_writes_eq_canon _ _ _ (fun y => ⟨_, List.mem_singleton_self _, View.mem_set_unit_zero hz2 inb y⟩)]
  exact View.canon_unit_zero hz2 inb w

/-- After one store over a rectangle, an index inside the rectangle reads the payload there. -/
theorem read_band_in {S : Shape} (M : Memref sig .tc .vmem S .f32) (f : M.view.ty.Contents (Elt F))
    (R : Rect S) (w : R.shape.Idx → Elt F .f32) (y : R.shape.Idx) :
    M.view.read (Elt F) (M.view.writes (Elt F) f [⟨R, w⟩]) (R.emb y) = w y :=
  View.read_writes_cons_emb M.view f R w [] y

/-- After one store over a rectangle, an index outside the rectangle reads what was there before. -/
theorem read_band_out {S : Shape} (M : Memref sig .tc .vmem S .f32) (f : M.view.ty.Contents (Elt F))
    (R : Rect S) (w : R.shape.Idx → Elt F .f32) (j : S.Idx) (hj : j ∉ R.set) :
    M.view.read (Elt F) (M.view.writes (Elt F) f [⟨R, w⟩]) j = M.view.read (Elt F) f j :=
  View.read_writes_apply_of_forall_not_mem M.view f j [⟨R, w⟩] fun p hp => by
    rw [List.mem_singleton] at hp; subst hp; exact hj

/-! ## The first layer's scratch fills band by band -/

variable (m : (ℓ : Loc nD τ sig) → Buf (Elt F) ℓ)

/-- Before any band is stored nothing is asked of the scratch. -/
theorem rowsDone_zero (c : Dev nD) (h : Vec F S10000x128 .f32) : rowsDone m c 0 h := by
  intro j hj
  omega

/-- After all 25 bands the scratch holds the whole first layer. -/
theorem rowsDone_full (c : Dev nD) (h : Vec F S10000x128 .f32) (hd : rowsDone m c 25 h) : h = H1 m c :=
  funext fun j => hd j (by have := Idealize.ShloMosaic.ValueIdx.idx2_lt0 j; omega)

/-- Storing band `t` over its 400 rows, and leaving every other row, extends the rows done by one band. -/
theorem rowsDone_step (c : Dev nD) (t : Fin cfg0.N) (ht : t.val < 25) (h3 : cond3 (grid0.coords t)) (h h' : Vec F S10000x128 .f32) (hprev : rowsDone m c t.val h)
    (hin : ∀ y : S400x128.Idx, h' ((Rect.unit (s := S10000x128) (k0_off1 (grid0.coords t)) S400x128.size (k0_off1_inb (grid0.coords t) h3)).emb y) = H1band m c t y)
    (hout : ∀ j : S10000x128.Idx, j ∉ (Rect.unit (s := S10000x128) (k0_off1 (grid0.coords t)) S400x128.size (k0_off1_inb (grid0.coords t) h3)).set → h' j = h j) :
    rowsDone m c (t.val + 1) h' := by
  intro j hj
  have hmod : t.val % 25 = t.val := Nat.mod_eq_of_lt ht
  by_cases hm : j ∈ (Rect.unit (s := S10000x128) (k0_off1 (grid0.coords t)) S400x128.size (k0_off1_inb (grid0.coords t) h3)).set
  · obtain ⟨y, rfl⟩ := (Rect.unit (s := S10000x128) (k0_off1 (grid0.coords t)) S400x128.size (k0_off1_inb (grid0.coords t) h3)).exists_idx_of_mem hm
    have hy0 : (y 0).val < 400 := (y 0).isLt
    have h0 : (((Rect.unit (s := S10000x128) (k0_off1 (grid0.coords t)) S400x128.size (k0_off1_inb (grid0.coords t) h3)).idx y) 0 : ℕ) = k0_off1 (grid0.coords t) 0 + 1 * (y 0).val := rfl
    have h1 : (((Rect.unit (s := S10000x128) (k0_off1 (grid0.coords t)) S400x128.size (k0_off1_inb (grid0.coords t) h3)).idx y) 1 : ℕ) = k0_off1 (grid0.coords t) 1 + 1 * (y 1).val := rfl
    have ho0 : k0_off1 (grid0.coords t) 0 = 400 * (t.val % 25) := by rw [off1_eq t]; rfl
    have ho1 : k0_off1 (grid0.coords t) 1 = 0 := by rw [off1_eq t]; rfl
    refine (hin y).trans ?_
    unfold H1
    refine congr (congrArg (H1band m c) (Fin.ext ?_)) (Shape.idx_ext₂ ?_ ?_)
    · show t.val = (((Rect.unit (s := S10000x128) (k0_off1 (grid0.coords t)) S400x128.size (k0_off1_inb (grid0.coords t) h3)).idx y) 0 : ℕ) / 400
      omega
    · show (y 0).val = (((Rect.unit (s := S10000x128) (k0_off1 (grid0.coords t)) S400x128.size (k0_off1_inb (grid0.coords t) h3)).idx y) 0 : ℕ) % 400
      omega
    · show (y 1).val = (((Rect.unit (s := S10000x128) (k0_off1 (grid0.coords t)) S400x128.size (k0_off1_inb (grid0.coords t) h3)).idx y) 1 : ℕ)
      omega
  · rw [hout j hm]
    apply hprev
    by_contra hge
    apply hm
    have hj1 := Idealize.ShloMosaic.ValueIdx.idx2_lt1 j
    rw [Rect.mem_set_unit, off1_eq t, Fin.forall_fin_two]
    refine ⟨⟨?_, ?_⟩, ⟨?_, ?_⟩⟩
    · show 400 * (t.val % 25) ≤ (j 0).val
      omega
    · show (j 0).val < 400 * (t.val % 25) + 400
      omega
    · show 0 ≤ (j 1).val
      omega
    · show (j 1).val < 0 + 128
      omega

end Cert.Kernel.Hand

end
-- ==== Proof.KBody.lean ====
import proofs.«134749_g33749853012156_cont_8to1_b_320_18_alg».proof.Proof.KPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region invariant, point by point

Before the first point the two scratch buffers hold anything. After `n` points of phase 0 (`1 ≤ n ≤ 25`) the shared
scratch holds `S1 = x · W1` and the first layer's scratch holds the layer on its first `400 · n` rows. After a point of
phase 1 the shared scratch holds `S2 = H1 · W2` and the first layer's scratch the whole layer. -/

def PhiS (c : Dev nD) : (n : ℕ) → n ≤ cfg0.N → sProp 𝕄
  | 0, _ => Pipeline.ΦA spec0 c
  | n + 1, _ =>
    if n + 1 ≤ 25 then
      iprop(iprop(owns (c : Thread nD τ) scM0 fullShare (S1 m c) ∗ (∃ h, ⌜rowsDone m c (n + 1) h⌝ ∗ owns (c : Thread nD τ) scM1 fullShare h)) ∗ (∃ r, prngReg c r))
    else
      iprop(iprop(owns (c : Thread nD τ) scM0 fullShare (S2 m c) ∗ owns (c : Thread nD τ) scM1 fullShare (H1 m c)) ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (h1 : 1 ≤ n) (h2 : n ≤ 25) :
    PhiS m c n h = iprop(iprop(owns (c : Thread nD τ) scM0 fullShare (S1 m c) ∗ (∃ h, ⌜rowsDone m c n h⌝ ∗ owns (c : Thread nD τ) scM1 fullShare h)) ∗ (∃ r, prngReg c r)) := by
  cases n with
  | zero => omega
  | succ n => exact if_pos h2

theorem PhiS_hi (c : Dev nD) (n : ℕ) (h : n ≤ cfg0.N) (h2 : 25 < n) :
    PhiS m c n h = iprop(iprop(owns (c : Thread nD τ) scM0 fullShare (S2 m c) ∗ owns (c : Thread nD τ) scM1 fullShare (H1 m c)) ∗ (∃ r, prngReg c r)) := by
  cases n with
  | zero => omega
  | succ n => exact if_neg (by omega)

/-! ## The pipeline's proof data -/

/-- The arrays as the region finds them; after the body at point `t` each input's buffer at its block and the three
    outputs' at the point's band of the representation and of the two heads (at the points of phase 0 the outputs are
    idle and not written back: what is stated there is consulted by nothing); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => repBand m c t
    | ⟨13, _⟩ => tauBand m c t
    | ⟨14, _⟩ => eBand m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (t : Fin cfg0.N) :
    (dats m 0 c).Φ t.succ = PhiS m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = repBand m c t := by dsimp only [dats]
theorem after_13 (c : Dev nD) (t : Fin cfg0.N) : (dats m 0 c).after 13 t = tauBand m c t := by dsimp only [dats]
theorem after_14 (c : Dev nD) (t : Fin cfg0.N) : (dats m 0 c).after 14 t = eBand m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
theorem leaves_6 (c : Dev nD) (t : Fin cfg0.N) : (dats m 0 c).leavesExact 6 t = owns (c : Thread nD τ) (ms6 t) fullShare (iblk m c 6 t) := by
  unfold Dat.leavesExact; rw [live6 t, after_6]
theorem leaves_7 (c : Dev nD) (t : Fin cfg0.N) : (dats m 0 c).leavesExact 7 t = owns (c : Thread nD τ) (ms7 t) fullShare (iblk m c 7 t) := by
  unfold Dat.leavesExact; rw [live7 t, after_7]
theorem leaves_8 (c : Dev nD) (t : Fin cfg0.N) : (dats m 0 c).leavesExact 8 t = owns (c : Thread nD τ) (ms8 t) fullShare (iblk m c 8 t) := by
  unfold Dat.leavesExact; rw [live8 t, after_8]
theorem leaves_9 (c : Dev nD) (t : Fin cfg0.N) : (dats m 0 c).leavesExact 9 t = owns (c : Thread nD τ) (ms9 t) fullShare (iblk m c 9 t) := by
  unfold Dat.leavesExact; rw [live9 t, after_9]
theorem leaves_10 (c : Dev nD) (t : Fin cfg0.N) : (dats m 0 c).leavesExact 10 t = owns (c : Thread nD τ) (ms10 t) fullShare (iblk m c 10 t) := by
  unfold Dat.leavesExact; rw [live10 t, after_10]
theorem leaves_11 (c : Dev nD) (t : Fin cfg0.N) : (dats m 0 c).leavesExact 11 t = owns (c : Thread nD τ) (ms11 t) fullShare (iblk m c 11 t) := by
  unfold Dat.leavesExact; rw [live11 t, after_11]
theorem leaves_12 (c : Dev nD) (t : Fin cfg0.N) (h4 : cond4 (grid0.coords t)) : (dats m 0 c).leavesExact 12 t = owns (c : Thread nD τ) (ms12 t) fullShare (repBand m c t) := by
  unfold Dat.leavesExact; rw [live12 t h4, after_12]
theorem leaves_13 (c : Dev nD) (t : Fin cfg0.N) (h4 : cond4 (grid0.coords t)) : (dats m 0 c).leavesExact 13 t = owns (c : Thread nD τ) (ms13 t) fullShare (tauBand m c t) := by
  unfold Dat.leavesExact; rw [live13 t h4, after_13]
theorem leaves_14 (c : Dev nD) (t : Fin cfg0.N) (h4 : cond4 (grid0.coords t)) : (dats m 0 c).leavesExact 14 t = owns (c : Thread nD τ) (ms14 t) fullShare (eBand m c t) := by
  unfold Dat.leavesExact; rw [live14 t h4, after_14]

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- One point of phase 0 on the first layer's scratch: storing the point's band over its rows extends the rows done. -/
theorem band_step (c : Dev nD) (t : Fin cfg0.N) (ht : t.val < 25) (h3 : cond3 (grid0.coords t))
    (M : Memref sig .tc .vmem S10000x128 .f32) (hM : M.IsWhole) (h : Vec F S10000x128 .f32) (hprev : rowsDone m c t.val h)
    (w : Vec F S400x128 .f32) (hw : w = H1band m c t) :
    rowsDone m c (t.val + 1) (M.view.read (Elt F) (M.view.writes (Elt F) (hM.unread h)
      [⟨(Rect.unit (s := S10000x128) (k0_off1 (grid0.coords t)) S400x128.size (k0_off1_inb (grid0.coords t) h3)), w⟩])) := by
  subst hw
  refine rowsDone_step m c t ht h3 h (M.view.read (Elt F) (M.view.writes (Elt F) (hM.unread h) [⟨(Rect.unit (s := S10000x128) (k0_off1 (grid0.coords t)) S400x128.size (k0_off1_inb (grid0.coords t) h3)), H1band m c t⟩])) hprev ?_ ?_
  · intro y
    exact read_band_in M (hM.unread h) (Rect.unit (s := S10000x128) (k0_off1 (grid0.coords t)) S400x128.size (k0_off1_inb (grid0.coords t) h3)) (H1band m c t) y
  · intro j hj
    exact (read_band_out M (hM.unread h) (Rect.unit (s := S10000x128) (k0_off1 (grid0.coords t)) S400x128.size (k0_off1_inb (grid0.coords t) h3)) (H1band m c t) j hj).trans (congrFun (hM.read_unread h) j)

theorem sound_A (c : Dev nD) (t : Fin cfg0.N) (hA : t.val = 0) :
    bodyPre m c t ⊢ wp frame (wpE (defs₀ (F := F)) Variants.none c none) Set.univ (bodyAt0 t) (fun _ => bodyPost m c t) := by
  obtain rfl : t = t0 := Fin.ext hA
  unfold bodyPre bodyPost bodyAt0
  simp only [before_0, before_1, before_2, before_3, before_4, before_5, before_6, before_7, before_8, before_9, before_10, before_11]
  rewrite [show (dats m 0 c).owesAt () t0.succ = (dats m 0 c).owesAt () t0.castSucc from rfl]
  have hc1 : cond1 (grid0.coords t0) := (hcond1 t0).mpr rfl
  have hc2 : ¬cond2 (grid0.coords t0) := fun h => by have := (hcond2 t0).mp h; omega
  have hc3 : cond3 (grid0.coords t0) := (hcond3 t0).mpr (by decide)
  have hc4 : ¬cond4 (grid0.coords t0) := fun h => by have := (hcond4 t0).mp h; omega
  rewrite [leaves_0, leaves_1, leaves_2, leaves_3, leaves_4, leaves_5, leaves_6, leaves_7, leaves_8, leaves_9, leaves_10, leaves_11]
  rewrite [Dat.leavesExact_idle (dats m 0 c) 12 t0 (idle12 t0 hc4) (noFlush12 t0 hc4), Dat.leavesExact_idle (dats m 0 c) 13 t0 (idle13 t0 hc4) (noFlush13 t0 hc4), Dat.leavesExact_idle (dats m 0 c) 14 t0 (idle14 t0 hc4) (noFlush14 t0 hc4)]
  rewrite [PhiS_castSucc m c t0, PhiS_succ m c t0, PhiS_zero m c _ _ rfl, PhiA_eq, PhiS_lo m c (0 + 1) _ (by omega) (by omega)]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun_A c (grid0.coords t0) _ _ _ _ _ _ _ _ _ _ _ _ _ _ _ _ _ _ _ _ _ _ _ _ _ _ _ _ _ _ _ _ _ _ hc1 hc2 hc3 hc4 (adjB m c t0) (xB m c t0) (w1B m c t0) (b1B m c t0) e0 e1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · isplitl [HS0]
      · unfold owns; iexists _; isplitr; swap; · iexact HS0
        ipureintro; rw [piecesA_s0]; exact read_whole_store _ _ _ _
      iexists _
      isplitr
      swap
      · unfold owns; iexists _; isplitr; swap; · iexact HS1
        ipureintro; rfl
      · ipureintro; rw [piecesA_s1]; exact band_step m c t0 (by show (0 : ℕ) < 25; omega) hc3 scM1 _ e1 (rowsDone_zero m c e1) _ rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

theorem sound_B (c : Dev nD) (t : Fin cfg0.N) (hA : t.val ≠ 0) (hB : t.val < 25) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rewrite [show (dats m 0 c).owesAt () t.succ = (dats m 0 c).owesAt () t.castSucc from rfl]
  have hc1 : ¬cond1 (grid0.coords t) := fun h => hA ((hcond1 t).mp h)
  have hc2 : ¬cond2 (grid0.coords t) := fun h => by have := (hcond2 t).mp h; omega
  have hc3 : cond3 (grid0.coords t) := (hcond3 t).mpr hB
  have hc4 : ¬cond4 (grid0.coords t) := fun h => by have := (hcond4 t).mp h; omega
  rewrite [leaves_0, leaves_1, leaves_2, leaves_3, leaves_4, leaves_5, leaves_6, leaves_7, leaves_8, leaves_9, leaves_10, leaves_11]
  rewrite [Dat.leavesExact_idle (dats m 0 c) 12 t (idle12 t hc4) (noFlush12 t hc4), Dat.leavesExact_idle (dats m 0 c) 13 t (idle13 t hc4) (noFlush13 t hc4), Dat.leavesExact_idle (dats m 0 c) 14 t (idle14 t hc4) (noFlush14 t hc4)]
  rewrite [PhiS_castSucc m c t, PhiS_succ m c t, PhiS_lo m c t.val _ (by omega) (by omega), PhiS_lo m c (t.val + 1) _ (by omega) (by omega)]
  iintro ⟨⟨⟨HS0, ⟨%h, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun_B c (grid0.coords t) _ _ _ _ _ _ _ _ _ _ _ _ _ _ _ _ _ _ _ _ _ _ _ _ _ _ _ _ _ _ _ _ _ _ hc1 hc2 hc3 hc4 (adjB m c t) (b1B m c t) (S1 m c) h).2 Set.univ _)
  isplitl [H0]; · iexact H0
  isplitl [H3]; · iexact H3
  isplitl [HS0]; · iexact HS0
  isplitl [HS1]; · iexact HS1
  iintro ⟨H0, H3, HS0, HS1⟩
  isplitl [HS0 HS1 Hg]
  · isplitl [HS0 HS1]
    · isplitl [HS0]; · iexact HS0
      iexists _
      isplitr
      swap
      · unfold owns; iexists _; isplitr; swap; · iexact HS1
        ipureintro; rfl
      · ipureintro; rw [piecesB]; exact band_step m c t hB hc3 scM1 _ h hd _ rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

theorem sound_C (c : Dev nD) (t : Fin cfg0.N) (hC : t.val = 25) :
    bodyPre m c t ⊢ wp frame (wpE (defs₀ (F := F)) Variants.none c none) Set.univ (bodyAt0 t) (fun _ => bodyPost m c t) := by
  obtain rfl : t = t25 := Fin.ext hC
  unfold bodyPre bodyPost bodyAt0
  simp only [before_0, before_1, before_2, before_3, before_4, before_5, before_6, before_7, before_8, before_9, before_10, before_11]
  rewrite [show (dats m 0 c).owesAt () t25.succ = (dats m 0 c).owesAt () t25.castSucc from rfl]
  have hc1 : ¬cond1 (grid0.coords t25) := fun h => by have := (hcond1 t25).mp h; omega
  have hc2 : cond2 (grid0.coords t25) := (hcond2 t25).mpr rfl
  have hc3 : ¬cond3 (grid0.coords t25) := fun h => by have := (hcond3 t25).mp h; omega
  have hc4 : cond4 (grid0.coords t25) := (hcond4 t25).mpr (by decide)
  rewrite [leaves_0, leaves_1, leaves_2, leaves_3, leaves_4, leaves_5, leaves_6, leaves_7, leaves_8, leaves_9, leaves_10, leaves_11]
  rewrite [leaves_12 m c t25 hc4, leaves_13 m c t25 hc4, leaves_14 m c t25 hc4]
  rewrite [PhiS_castSucc m c t25, PhiS_succ m c t25, PhiS_lo m c (25 : ℕ) _ (by omega) (by omega), PhiS_hi m c (25 + 1) _ (by omega)]
  iintro ⟨⟨⟨HS0, ⟨%h, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl : h = H1 m c := rowsDone_full m c h hd
  iapply ((kernelRun_C c (grid0.coords t25) _ _ _ _ _ _ _ _ _ _ _ _ _ _ _ _ _ _ _ _ _ _ _ _ _ _ _ _ _ _ _ _ _ _ hc1 hc2 hc3 hc4 (adjB m c t25) (w2B m c t25) (b2B m c t25) (wt1B m c t25) (bt1B m c t25) (wt2B m c t25) (bt2B m c t25) (wpB m c t25) (bpB m c t25) _ _ _ (S1 m c) (H1 m c)).2.2.2.2 Set.univ _)
  isplitl [H0]; · iexact H0
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  iintro ⟨H0, H4, H5, H6, H7, H8, H9, H10, H11, H12, H13, H14, HS0, HS1⟩
  isplitl [HS0 HS1 Hg]
  · isplitl [HS0 HS1]
    · isplitl [HS0]
      · unfold owns; iexists _; isplitr; swap; · iexact HS0
        ipureintro; rw [piecesC_s0]; exact read_whole_store _ _ _ _
      iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; rw [piecesC_12]; exact read_whole_store _ _ _ _
  isplitl [H13]
  · unfold owns; iexists _; isplitr; swap; · iexact H13
    ipureintro; rw [piecesC_13]; exact read_whole_store _ _ _ _
  unfold owns; iexists _; isplitr; swap; · iexact H14
  ipureintro; rw [piecesC_14]; exact read_whole_store _ _ _ _

theorem sound_D (c : Dev nD) (t : Fin cfg0.N) (hD : 25 < t.val) :
    bodyPre m c t ⊢ wp frame (wpE (defs₀ (F := F)) Variants.none c none) Set.univ (bodyAt0 t) (fun _ => bodyPost m c t) := by
  have hN : t.val < 50 := lt_of_lt_of_eq t.isLt (show cfg0.N = 50 from N_0)
  unfold bodyPre bodyPost bodyAt0
  simp only [before_0, before_1, before_2, before_3, before_4, before_5, before_6, before_7, before_8, before_9, before_10, before_11]
  rewrite [show (dats m 0 c).owesAt () t.succ = (dats m 0 c).owesAt () t.castSucc from rfl]
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr (by omega)
  rewrite [leaves_0, leaves_1, leaves_2, leaves_3, leaves_4, leaves_5, leaves_6, leaves_7, leaves_8, leaves_9, leaves_10, leaves_11]
  rewrite [leaves_12 m c t hc4, leaves_13 m c t hc4, leaves_14 m c t hc4]
  rewrite [PhiS_castSucc m c t, PhiS_succ m c t, PhiS_hi m c t.val _ hD, PhiS_hi m c (t.val + 1) _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun_D c (grid0.coords t) _ _ _ _ _ _ _ _ _ _ _ _ _ _ _ _ _ _ _ _ _ _ _ _ _ _ _ _ _ _ _ _ _ _ hc1 hc2 hc3 hc4 (adjB m c t) (b2B m c t) (wt1B m c t) (bt1B m c t) (wt2B m c t) (bt2B m c t) (wpB m c t) (bpB m c t) _ _ _ (S2 m c)).2.2.2 Set.univ _)
  isplitl [H0]; · iexact H0
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  iintro ⟨H0, H5, H6, H7, H8, H9, H10, H11, H12, H13, H14, HS0⟩
  isplitl [HS0 HS1 Hg]
  · isplitl [HS0 HS1]
    · isplitl [HS0]; · iexact HS0
      iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; rw [piecesD_12]; exact read_whole_store _ _ _ _
  isplitl [H13]
  · unfold owns; iexists _; isplitr; swap; · iexact H13
    ipureintro; rw [piecesD_13]; exact read_whole_store _ _ _ _
  unfold owns; iexists _; isplitr; swap; · iexact H14
  ipureintro; rw [piecesD_14]; exact read_whole_store _ _ _ _

/-- The body at any point: the four shapes of point by where the point lies on the grid. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_A m c t hA
  · by_cases hB : t.val < 25
    · exact sound_B m c t hA hB
    · by_cases hC : t.val = 25
      · exact sound_C m c t hC
      · exact sound_D m c t (by omega)

theorem body_obligation (c : Dev nD) : BodyObligation (dats (F := F) m 0 c) (defs₀ (F := F)) Variants.none () Set.univ := fun t => by
  rw [bigSep_W0, bigSep_W0]
  exact sound_body m c t

/-- Before the first point the invariant is the class's: the scratch buffers at anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the named contents of the scratch buffers are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last]; have : cfg0.N = 50 := N_0; omega), PhiA_eq]
  iintro ⟨⟨HS0, HS1⟩, Hg⟩
  isplitl [HS0 HS1]
  · isplitl [HS0]; · iexists _; iexact HS0
    iexists _; iexact HS1
  iexact Hg

set_option backward.isDefEq.respectTransparency.types false in
/-- Every weakly fair execution of @main terminates, nothing faulting; at the end every array of the pipeline holds what
    the write-backs of the proof data's blocks leave, and every other unscoped buffer what the host lines after the region
    leave from the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Hand

end
-- ==== Proof.KISetup.lean ====
import proofs.«134749_g33749853012156_cont_8to1_b_320_18_alg».proof.Proof.Gen.KernelIdeal.Frame
import proofs.«134749_g33749853012156_cont_8to1_b_320_18_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branch conditions, as the skeleton spells them, and where on the grid each holds

The grid is 2 × 25, point `t` having coordinates `(t / 25, t % 25)`: the first coordinate is the phase (0: the first
graph-convolution layer is formed into scratch; 1: the second layer and the two heads are formed into the outputs), the
second the band of 400 adjacency rows. -/

/-- "phase 0 and band 0": the input features are projected by the first weight into the shared scratch. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- "phase 1 and band 0": the first layer is projected by the second weight into the shared scratch. -/
abbrev cond2 (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
/-- "phase 0": the band of the first layer is stored into its scratch. -/
abbrev cond3 (i : grid0.Coords) : Prop := k0_cond3 i = 1#1
/-- "phase 1": the band of the second layer and of the heads is stored into the outputs. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 25 :=
  (by decide +kernel : ∀ t : Fin grid0.N, cond2 (grid0.coords t) ↔ t.val = 25)
theorem hcond3 : ∀ t : Fin cfg0.N, cond3 (grid0.coords t) ↔ t.val < 25 :=
  (by decide +kernel : ∀ t : Fin grid0.N, cond3 (grid0.coords t) ↔ t.val < 25)
theorem hcond4 : ∀ t : Fin cfg0.N, cond4 (grid0.coords t) ↔ 25 ≤ t.val :=
  (by decide +kernel : ∀ t : Fin grid0.N, cond4 (grid0.coords t) ↔ 25 ≤ t.val)

/-- The band's first row in the first layer's scratch: 400 times the band. -/
theorem off1_eq : ∀ t : Fin cfg0.N, k0_off1 (grid0.coords t) = ![400 * (t.val % 25), 0] :=
  (by decide +kernel : ∀ t : Fin grid0.N, k0_off1 (grid0.coords t) = ![400 * (t.val % 25), 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem idle12 : ∀ t : Fin cfg0.N, ¬cond4 (grid0.coords t) → cfg0.idle 12 (grid0.coords t) = true := by decide +kernel
theorem noFlush12 : ∀ t : Fin cfg0.N, ¬cond4 (grid0.coords t) → (cfg0.win 12).flush t = false := by decide +kernel
theorem live12 : ∀ t : Fin cfg0.N, cond4 (grid0.coords t) → cfg0.idle 12 (grid0.coords t) = false := by decide +kernel
theorem idle13 : ∀ t : Fin cfg0.N, ¬cond4 (grid0.coords t) → cfg0.idle 13 (grid0.coords t) = true := by decide +kernel
theorem noFlush13 : ∀ t : Fin cfg0.N, ¬cond4 (grid0.coords t) → (cfg0.win 13).flush t = false := by decide +kernel
theorem live13 : ∀ t : Fin cfg0.N, cond4 (grid0.coords t) → cfg0.idle 13 (grid0.coords t) = false := by decide +kernel
theorem idle14 : ∀ t : Fin cfg0.N, ¬cond4 (grid0.coords t) → cfg0.idle 14 (grid0.coords t) = true := by decide +kernel
theorem noFlush14 : ∀ t : Fin cfg0.N, ¬cond4 (grid0.coords t) → (cfg0.win 14).flush t = false := by decide +kernel
theorem live14 : ∀ t : Fin cfg0.N, cond4 (grid0.coords t) → cfg0.idle 14 (grid0.coords t) = false := by decide +kernel

/-! ## The staging memrefs the body is called with, and the two scratch buffers -/

abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x1 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S400x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S400x1 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S400x1 .f32 := win0_14.stage (cfg0.slots t 14)
abbrev hs14 (t : Fin cfg0.N) : (ms14 t).IsWhole := hstage0_14 ((cfg0.slots t 14).cast nbuf0_14)
/-- The shared scratch: the projected features of the current phase. -/
abbrev scM0 : Memref sig .tc .vmem S10000x128 .f32 := Memref.whole cc0_scratch0
/-- The first layer, one band of 400 rows per point of phase 0. -/
abbrev scM1 : Memref sig .tc .vmem S10000x128 .f32 := Memref.whole cc0_scratch1

/-- The class invariant with the two scratch buffers as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Hand

end
-- ==== Proof.KIRunA.lean ====
import proofs.«134749_g33749853012156_cont_8to1_b_320_18_alg».proof.Proof.KISetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the input features are projected by the first weight into the shared scratch (stored whole), and the first band of adjacency rows times that projection, plus the bias row, rectified, is stored over the band's rows of the first layer's scratch. The pieces written are found by the run. -/
noncomputable def kernelRun_A (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x0 : Vec F S400x10000 .f32) (x1 : Vec F S10000x128 .f32) (x2 : Vec F S128x128 .f32) (x3 : Vec F S1x128 .f32) (xs0 : Vec F S10000x128 .f32) (xs1 : Vec F S10000x128 .f32) :
    Σ' (LS0 : List (View.Piece (Elt F) S10000x128 .f32)), { LS1 : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H17]; · iexact H17
    iexact H18

end Cert.KernelIdeal.Hand

end
-- ==== Proof.KIRunB.lean ====
import proofs.«134749_g33749853012156_cont_8to1_b_320_18_alg».proof.Proof.KISetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later point of phase 0: the band of adjacency rows times the projected features held in the shared scratch, plus the bias row, rectified, is stored over the band's rows of the first layer's scratch; nothing else is written. The pieces written are found by the run. -/
noncomputable def kernelRun_B (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i) (x0 : Vec F S400x10000 .f32) (x3 : Vec F S1x128 .f32) (xs0 : Vec F S10000x128 .f32) (xs1 : Vec F S10000x128 .f32) :
    { LS1 : List (View.Piece (Elt F) S10000x128 .f32) //
      ∀ (E : Set ℕ) (K : PUnit → sProp 𝕄),
        iprop(owns (c : Thread nD τ) arg2 fullShare x0 ∗ owns (c : Thread nD τ) arg5 fullShare x3 ∗ owns (c : Thread nD τ) arg17 fullShare xs0 ∗ owns (c : Thread nD τ) arg18 fullShare xs1
            ∗ (iprop(owns (c : Thread nD τ) arg2 fullShare x0 ∗ owns (c : Thread nD τ) arg5 fullShare x3 ∗ owns (c : Thread nD τ) arg17 fullShare xs0 ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__body_eq_skeleton]; unfold cc0__body_skel
    unfold owns
    iintro ⟨⟨%f2, %hf2, H2⟩, ⟨%f5, %hf5, H5⟩, ⟨%f17, %hf17, H17⟩, ⟨%f18, %hf18, H18⟩, Hk⟩
    obtain rfl := harg2.eq_unread hf2; obtain rfl := harg5.eq_unread hf5; obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H5]
    · iexists _; isplitr; · ipureintro; exact harg5.read_unread _
      iexact H5
    isplitl [H17]
    · iexists _; isplitr; · ipureintro; exact harg17.read_unread _
      iexact H17
    iexact H18

end Cert.KernelIdeal.Hand

end
-- ==== Proof.KIRunC.lean ====
import proofs.«134749_g33749853012156_cont_8to1_b_320_18_alg».proof.Proof.KISetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point of phase 1: the first layer, read whole from its scratch, is projected by the second weight into the shared scratch (stored whole); the first band of adjacency rows times that projection, plus the bias row, rectified, is the band of the representation, stored whole into its output buffer, and the two heads of that band are stored whole into theirs. The pieces written are found by the run. -/
noncomputable def kernelRun_C (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    Σ' (L12 : List (View.Piece (Elt F) S400x128 .f32)), Σ' (L13 : List (View.Piece (Elt F) S400x1 .f32)), Σ' (L14 : List (View.Piece (Elt F) S400x1 .f32)), { LS0 : List (View.Piece (Elt F) S10000x128 .f32) //
      ∀ (E : Set ℕ) (K : PUnit → sProp 𝕄),
        iprop(owns (c : Thread nD τ) arg2 fullShare x0 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xo13 ∗ owns (c : Thread nD τ) arg16 fullShare xo14 ∗ owns (c : Thread nD τ) arg17 fullShare xs0 ∗ owns (c : Thread nD τ) arg18 fullShare xs1
            ∗ (iprop(owns (c : Thread nD τ) arg2 fullShare x0 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (arg14.view.loc (c : Thread nD τ) ↦[arg14.view.set]{fullShare} arg14.view.writes (Elt F) (harg14.unread xo12) L12) ∗ (arg15.view.loc (c : Thread nD τ) ↦[arg15.view.set]{fullShare} arg15.view.writes (Elt F) (harg15.unread xo13) L13) ∗ (arg16.view.loc (c : Thread nD τ) ↦[arg16.view.set]{fullShare} arg16.view.writes (Elt F) (harg16.unread xo14) L14) ∗ (arg17.view.loc (c : Thread nD τ) ↦[arg17.view.set]{fullShare} arg17.view.writes (Elt F) (harg17.unread xs0) LS0) ∗ owns (c : Thread nD τ) arg18 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__body_eq_skeleton]; unfold cc0__body_skel
    unfold owns
    iintro ⟨⟨%f2, %hf2, H2⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4)
    sl_step
    iapply Hk
    isplitl [H2]
    · iexists _; isplitr; · ipureintro; exact harg2.read_unread _
      iexact H2
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    isplitl [H17]; · iexact H17
    iexists _; isplitr; · ipureintro; exact harg18.read_unread _
    iexact H18

end Cert.KernelIdeal.Hand

end
-- ==== Proof.KIRunD.lean ====
import proofs.«134749_g33749853012156_cont_8to1_b_320_18_alg».proof.Proof.KISetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later point of phase 1: the band of adjacency rows times the projection held in the shared scratch, plus the bias row, rectified, is the band of the representation, stored whole into its output buffer, and the two heads of that band are stored whole into theirs. The pieces written are found by the run. -/
noncomputable def kernelRun_D (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    Σ' (L12 : List (View.Piece (Elt F) S400x128 .f32)), Σ' (L13 : List (View.Piece (Elt F) S400x1 .f32)), { L14 : List (View.Piece (Elt F) S400x1 .f32) //
      ∀ (E : Set ℕ) (K : PUnit → sProp 𝕄),
        iprop(owns (c : Thread nD τ) arg2 fullShare x0 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xo12 ∗ owns (c : Thread nD τ) arg15 fullShare xo13 ∗ owns (c : Thread nD τ) arg16 fullShare xo14 ∗ owns (c : Thread nD τ) arg17 fullShare xs0
            ∗ (iprop(owns (c : Thread nD τ) arg2 fullShare x0 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (arg14.view.loc (c : Thread nD τ) ↦[arg14.view.set]{fullShare} arg14.view.writes (Elt F) (harg14.unread xo12) L12) ∗ (arg15.view.loc (c : Thread nD τ) ↦[arg15.view.set]{fullShare} arg15.view.writes (Elt F) (harg15.unread xo13) L13) ∗ (arg16.view.loc (c : Thread nD τ) ↦[arg16.view.set]{fullShare} arg16.view.writes (Elt F) (harg16.unread xo14) L14) ∗ owns (c : Thread nD τ) arg17 fullShare xs0) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0__body_eq_skeleton]; unfold cc0__body_skel
    unfold owns
    iintro ⟨⟨%f2, %hf2, H2⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | exact hc1 | exact hc2 | exact hc3 | exact hc4)
    sl_step
    iapply Hk
    isplitl [H2]
    · iexists _; isplitr; · ipureintro; exact harg2.read_unread _
      iexact H2
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexact H14
    isplitl [H15]; · iexact H15
    isplitl [H16]; · iexact H16
    iexists _; isplitr; · ipureintro; exact harg17.read_unread _
    iexact H17

end Cert.KernelIdeal.Hand

end
-- ==== Proof.KIData.lean ====
import proofs.«134749_g33749853012156_cont_8to1_b_320_18_alg».proof.Proof.KISetup
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The input blocks at a point, each at its literal type -/

/-- Window 0's block at point `t`: the point's band of 400 adjacency rows. -/
abbrev adjB (c : Dev nD) (t : Fin cfg0.N) : Vec F S400x10000 .f32 := iblk m c 0 t
/-- Window 1's block at point `t`: the input features. -/
abbrev xB (c : Dev nD) (t : Fin cfg0.N) : Vec F S10000x128 .f32 := iblk m c 1 t
/-- Window 2's block at point `t`: the first weight. -/
abbrev w1B (c : Dev nD) (t : Fin cfg0.N) : Vec F S128x128 .f32 := iblk m c 2 t
/-- Window 3's block at point `t`: the first bias, as a row. -/
abbrev b1B (c : Dev nD) (t : Fin cfg0.N) : Vec F S1x128 .f32 := iblk m c 3 t
/-- Window 4's block at point `t`: the second weight. -/
abbrev w2B (c : Dev nD) (t : Fin cfg0.N) : Vec F S128x128 .f32 := iblk m c 4 t
/-- Window 5's block at point `t`: the second bias, as a row. -/
abbrev b2B (c : Dev nD) (t : Fin cfg0.N) : Vec F S1x128 .f32 := iblk m c 5 t
/-- Window 6's block at point `t`: the effect head's hidden weight. -/
abbrev wt1B (c : Dev nD) (t : Fin cfg0.N) : Vec F S128x128 .f32 := iblk m c 6 t
/-- Window 7's block at point `t`: the effect head's hidden bias, as a row. -/
abbrev bt1B (c : Dev nD) (t : Fin cfg0.N) : Vec F S1x128 .f32 := iblk m c 7 t
/-- Window 8's block at point `t`: the effect head's output weight. -/
abbrev wt2B (c : Dev nD) (t : Fin cfg0.N) : Vec F S128x1 .f32 := iblk m c 8 t
/-- Window 9's block at point `t`: the effect head's output bias. -/
abbrev bt2B (c : Dev nD) (t : Fin cfg0.N) : Vec F S1x1 .f32 := iblk m c 9 t
/-- Window 10's block at point `t`: the propensity head's weight. -/
abbrev wpB (c : Dev nD) (t : Fin cfg0.N) : Vec F S128x1 .f32 := iblk m c 10 t
/-- Window 11's block at point `t`: the propensity head's bias. -/
abbrev bpB (c : Dev nD) (t : Fin cfg0.N) : Vec F S1x1 .f32 := iblk m c 11 t

/-- The first point of phase 0 and the first point of phase 1. -/
abbrev t0 : Fin cfg0.N := ⟨0, by rw [show cfg0.N = 50 from N_0]; omega⟩
abbrev t25 : Fin cfg0.N := ⟨25, by rw [show cfg0.N = 50 from N_0]; omega⟩

/-! ## What the kernel holds in its scratch buffers and leaves in its output buffers

Phase 0 forms `S1 = x · W1` once (at its first point) and then, band by band, the first layer
`H1 = max (adj · S1 + b1) 0`; phase 1 forms `S2 = H1 · W2` once and then, band by band, the representation
`max (adj · S2 + b2) 0` and the two heads of that band. Each is the kernel's own payload term of the blocks. -/

/-- The input features projected by the first weight. -/
def S1 (c : Dev nD) : Vec F S10000x128 .f32 := k0_pay1 (xB m c t0) (w1B m c t0)

/-- The band of the first layer a point of phase 0 stores. -/
def H1band (c : Dev nD) (t : Fin cfg0.N) : Vec F S400x128 .f32 := k0_pay4 (adjB m c t) (S1 m c) (b1B m c t)

/-- The point of phase 0 whose band holds row `r`. -/
def bandPt (r : Nat) (hr : r < 10000) : Fin cfg0.N := ⟨r / 400, by rw [show cfg0.N = 50 from N_0]; omega⟩

/-- The first layer whole: row `r` is row `r % 400` of the band of point `r / 400`. -/
def H1 (c : Dev nD) : Vec F S10000x128 .f32 := fun j =>
  H1band m c (bandPt (j 0).val (j 0).isLt) (Idealize.ShloMosaic.ValueIdx.ix2 ⟨(j 0).val % 400, Nat.mod_lt _ (by decide)⟩ (j 1))

/-- The first layer projected by the second weight. -/
def S2 (c : Dev nD) : Vec F S10000x128 .f32 := k0_pay2 (H1 m c) (w2B m c t25)

/-- The band of the representation a point of phase 1 stores, -/
def repBand (c : Dev nD) (t : Fin cfg0.N) : Vec F S400x128 .f32 := k0_pay5 (adjB m c t) (S2 m c) (b2B m c t)
/-- of the effect head, -/
def tauBand (c : Dev nD) (t : Fin cfg0.N) : Vec F S400x1 .f32 :=
  k0_pay6 (adjB m c t) (S2 m c) (b2B m c t) (wt1B m c t) (bt1B m c t) (wt2B m c t) (bt2B m c t)
/-- and of the propensity head. -/
def eBand (c : Dev nD) (t : Fin cfg0.N) : Vec F S400x1 .f32 :=
  k0_pay7 (adjB m c t) (S2 m c) (b2B m c t) (wpB m c t) (bpB m c t)

/-- After `n` points of phase 0 the first layer's scratch holds the layer on its first `400 · n` rows
    (the other rows hold whatever they held). -/
def rowsDone (c : Dev nD) (n : ℕ) (h : Vec F S10000x128 .f32) : Prop :=
  ∀ j : S10000x128.Idx, (j 0).val < 400 * n → h j = H1 m c j

end Cert.KernelIdeal.Hand

end
-- ==== Proof.KIPieces.lean ====
/- What each whole-body run of the kernel leaves: the list of stores into each buffer is one store of the
   payload term of the loaded blocks, over the band's rows or over the whole buffer; how a buffer reads back
   after one such store; and how the first layer's scratch fills, one band of 400 rows per point. -/
import proofs.«134749_g33749853012156_cont_8to1_b_320_18_alg».proof.Proof.KIRunA
import proofs.«134749_g33749853012156_cont_8to1_b_320_18_alg».proof.Proof.KIRunB
import proofs.«134749_g33749853012156_cont_8to1_b_320_18_alg».proof.Proof.KIRunC
import proofs.«134749_g33749853012156_cont_8to1_b_320_18_alg».proof.Proof.KIRunD
import proofs.«134749_g33749853012156_cont_8to1_b_320_18_alg».proof.Proof.KIData
import Idealize.ShloMosaic.Lib.Pipeline.FrameBody
import Idealize.ShloMosaic.Lib.Pipeline.Value
import Idealize.ShloMosaic.Lib.Writes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a rank-2 rectangle, as the constant function. -/
theorem hz2 : (![0, 0] : Fin 2 → ℕ) = fun _ => 0 := by
  funext a; match a with | ⟨0, _⟩ => rfl | ⟨1, _⟩ => rfl

/-! ## The stores each run leaves, as payloads of the values owned before the run -/

theorem piecesB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : cond3 i) (hc4 : ¬cond4 i) (x0 : Vec F S400x10000 .f32) (x3 : Vec F S1x128 .f32) (xs0 : Vec F S10000x128 .f32) (xs1 : Vec F S10000x128 .f32) :
    (kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x3 xs0 xs1).1 = [⟨Rect.unit (s := S10000x128) (k0_off1 i) S400x128.size (k0_off1_inb i hc3), k0_pay4 x0 xs0 x3⟩] := by
  unfold kernelRun_B; dsimp only
  simp only [View.readAt_eq_ld, harg2.read_unread, harg17.read_unread, harg5.read_unread, View.ld_unit_zero (S := S400x10000) hz2, View.ld_unit_zero (S := S10000x128) hz2, View.ld_unit_zero (S := S1x128) hz2]

theorem piecesA_s0 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x0 : Vec F S400x10000 .f32) (x1 : Vec F S10000x128 .f32) (x2 : Vec F S128x128 .f32) (x3 : Vec F S1x128 .f32) (xs0 : Vec F S10000x128 .f32) (xs1 : Vec F S10000x128 .f32) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x1 x2 x3 xs0 xs1).1 = [⟨Rect.unit (s := S10000x128) ![0, 0] S10000x128.size inb_S10000x128_S10000x128_0_0, k0_pay1 x1 x2⟩] := by
  unfold kernelRun_A; dsimp only
  unfold kernelRun_A.sl.H17_1
  simp only [View.readAt_eq_ld, harg3.read_unread, harg4.read_unread, View.ld_unit_zero (S := S10000x128) hz2, View.ld_unit_zero (S := S128x128) hz2]

theorem piecesA_s1 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : cond1 i) (hc2 : ¬cond2 i) (hc3 : cond3 i) (hc4 : ¬cond4 i) (x0 : Vec F S400x10000 .f32) (x1 : Vec F S10000x128 .f32) (x2 : Vec F S128x128 .f32) (x3 : Vec F S1x128 .f32) (xs0 : Vec F S10000x128 .f32) (xs1 : Vec F S10000x128 .f32) :
    (kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x1 x2 x3 xs0 xs1).2.1 = [⟨Rect.unit (s := S10000x128) (k0_off1 i) S400x128.size (k0_off1_inb i hc3), k0_pay4 x0 (k0_pay1 x1 x2) x3⟩] := by
  unfold kernelRun_A; dsimp only
  unfold kernelRun_A.sl.v11 kernelRun_A.sl.H17_1
  simp only [View.readAt_eq_ld, harg2.read_unread, harg3.read_unread, harg4.read_unread, harg5.read_unread, harg17.read_unread, View.ld_unit_zero (S := S400x10000) hz2, View.ld_unit_zero (S := S10000x128) hz2, View.ld_unit_zero (S := S128x128) hz2, View.ld_unit_zero (S := S1x128) hz2, View.readCov_unit_zero (S := S10000x128) _ hz2]

theorem piecesC_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).1 = [⟨Rect.unit (s := S400x128) ![0, 0] S400x128.size inb_S400x128_S400x128_0_0, k0_pay5 x0 (k0_pay2 xs1 x4) x5⟩] := by
  unfold kernelRun_C; dsimp only
  unfold kernelRun_C.sl.v11 kernelRun_C.sl.H17_1
  simp only [View.readAt_eq_ld, harg2.read_unread, harg6.read_unread, harg7.read_unread, harg17.read_unread, harg18.read_unread, View.ld_unit_zero (S := S400x10000) hz2, View.ld_unit_zero (S := S10000x128) hz2, View.ld_unit_zero (S := S128x128) hz2, View.ld_unit_zero (S := S1x128) hz2, View.readCov_unit_zero (S := S10000x128) _ hz2]

theorem piecesC_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).2.1 = [⟨Rect.unit (s := S400x1) ![0, 0] S400x1.size inb_S400x1_S400x1_0_0, k0_pay6 x0 (k0_pay2 xs1 x4) x5 x6 x7 x8 x9⟩] := by
  unfold kernelRun_C; dsimp only
  unfold kernelRun_C.sl.v11 kernelRun_C.sl.H17_1
  simp only [View.readAt_eq_ld, harg2.read_unread, harg6.read_unread, harg7.read_unread, harg8.read_unread, harg9.read_unread, harg10.read_unread, harg11.read_unread, harg17.read_unread, harg18.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.readCov_unit_zero (S := S10000x128) _ hz2]

theorem piecesC_14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).2.2.1 = [⟨Rect.unit (s := S400x1) ![0, 0] S400x1.size inb_S400x1_S400x1_0_0, k0_pay7 x0 (k0_pay2 xs1 x4) x5 x10 x11⟩] := by
  unfold kernelRun_C; dsimp only
  unfold kernelRun_C.sl.v11 kernelRun_C.sl.H17_1
  simp only [View.readAt_eq_ld, harg2.read_unread, harg6.read_unread, harg7.read_unread, harg12.read_unread, harg13.read_unread, harg17.read_unread, harg18.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2, View.readCov_unit_zero (S := S10000x128) _ hz2]

theorem piecesC_s0 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : cond2 i) (hc3 : ¬cond3 i) (hc4 : cond4 i) (x0 : Vec F S400x10000 .f32) (x4 : Vec F S128x128 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) (xs1 : Vec F S10000x128 .f32) :
    (kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x4 x5 x6 x7 x8 x9 x10 x11 xo12 xo13 xo14 xs0 xs1).2.2.2.1 = [⟨Rect.unit (s := S10000x128) ![0, 0] S10000x128.size inb_S10000x128_S10000x128_0_0, k0_pay2 xs1 x4⟩] := by
  unfold kernelRun_C; dsimp only
  unfold kernelRun_C.sl.H17_1
  simp only [View.readAt_eq_ld, harg6.read_unread, harg18.read_unread, View.ld_unit_zero (S := S10000x128) hz2, View.ld_unit_zero (S := S128x128) hz2]

theorem piecesD_12 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    (kernelRun_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x5 x6 x7 x8 x9 x10 x11 xo12 xo13 xo14 xs0).1 = [⟨Rect.unit (s := S400x128) ![0, 0] S400x128.size inb_S400x128_S400x128_0_0, k0_pay5 x0 xs0 x5⟩] := by
  unfold kernelRun_D; dsimp only
  simp only [View.readAt_eq_ld, harg2.read_unread, harg7.read_unread, harg17.read_unread, View.ld_unit_zero (S := S400x10000) hz2, View.ld_unit_zero (S := S10000x128) hz2, View.ld_unit_zero (S := S1x128) hz2]

theorem piecesD_13 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    (kernelRun_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x5 x6 x7 x8 x9 x10 x11 xo12 xo13 xo14 xs0).2.1 = [⟨Rect.unit (s := S400x1) ![0, 0] S400x1.size inb_S400x1_S400x1_0_0, k0_pay6 x0 xs0 x5 x6 x7 x8 x9⟩] := by
  unfold kernelRun_D; dsimp only
  simp only [View.readAt_eq_ld, harg2.read_unread, harg7.read_unread, harg8.read_unread, harg9.read_unread, harg10.read_unread, harg11.read_unread, harg17.read_unread, View.ld_unit_zero (S := S400x10000) hz2, View.ld_unit_zero (S := S10000x128) hz2, View.ld_unit_zero (S := S128x128) hz2, View.ld_unit_zero (S := S1x128) hz2, View.ld_unit_zero (S := S128x1) hz2, View.ld_unit_zero (S := S1x1) hz2]

theorem piecesD_14 (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x1 .f32) (harg10 : arg10.IsWhole) (arg11 : Memref sig .tc .vmem S1x1 .f32) (harg11 : arg11.IsWhole) (arg12 : Memref sig .tc .vmem S128x1 .f32) (harg12 : arg12.IsWhole) (arg13 : Memref sig .tc .vmem S1x1 .f32) (harg13 : arg13.IsWhole) (arg14 : Memref sig .tc .vmem S400x128 .f32) (harg14 : arg14.IsWhole) (arg15 : Memref sig .tc .vmem S400x1 .f32) (harg15 : arg15.IsWhole) (arg16 : Memref sig .tc .vmem S400x1 .f32) (harg16 : arg16.IsWhole) (arg17 : Memref sig .tc .vmem S10000x128 .f32) (harg17 : arg17.IsWhole) (arg18 : Memref sig .tc .vmem S10000x128 .f32) (harg18 : arg18.IsWhole)
    (hc1 : ¬cond1 i) (hc2 : ¬cond2 i) (hc3 : ¬cond3 i) (hc4 : cond4 i) (x0 : Vec F S400x10000 .f32) (x5 : Vec F S1x128 .f32) (x6 : Vec F S128x128 .f32) (x7 : Vec F S1x128 .f32) (x8 : Vec F S128x1 .f32) (x9 : Vec F S1x1 .f32) (x10 : Vec F S128x1 .f32) (x11 : Vec F S1x1 .f32) (xo12 : Vec F S400x128 .f32) (xo13 : Vec F S400x1 .f32) (xo14 : Vec F S400x1 .f32) (xs0 : Vec F S10000x128 .f32) :
    (kernelRun_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 x0 x5 x6 x7 x8 x9 x10 x11 xo12 xo13 xo14 xs0).2.2.1 = [⟨Rect.unit (s := S400x1) ![0, 0] S400x1.size inb_S400x1_S400x1_0_0, k0_pay7 x0 xs0 x5 x10 x11⟩] := by
  unfold kernelRun_D; dsimp only
  simp only [View.readAt_eq_ld, harg2.read_unread, harg7.read_unread, harg12.read_unread, harg13.read_unread, harg17.read_unread, View.ld_unit_zero (S := S400x10000) hz2, View.ld_unit_zero (S := S10000x128) hz2, View.ld_unit_zero (S := S1x128) hz2, View.ld_unit_zero (S := S128x1) hz2, View.ld_unit_zero (S := S1x1) hz2]

/-! ## Reading a buffer back after one store -/

/-- After one store over the whole of a rank-2 buffer, the buffer reads as the stored payload. -/
theorem read_whole_store {d : Fin 2 → ℕ} (M : Memref sig .tc .vmem ⟨2, d⟩ .f32) (f : M.view.ty.Contents (Elt F))
    (inb : ∀ a, (![0, 0] : Fin 2 → ℕ) a + (⟨2, d⟩ : Shape).size a ≤ (⟨2, d⟩ : Shape).size a) (w : (⟨2, d⟩ : Shape).Idx → Elt F .f32) :
    M.view.read (Elt F) (M.view.writes (Elt F) f [⟨Rect.unit (s := ⟨2, d⟩) ![0, 0] (⟨2, d⟩ : Shape).size inb, w⟩]) = w := by
  rw [View.read_writes_eq_canon _ _ _ (fun y => ⟨_, List.mem_singleton_self _, View.mem_set_unit_zero hz2 inb y⟩)]
  exact View.canon_unit_zero hz2 inb w

/-- After one store over a rectangle, an index inside the rectangle reads the payload there. -/
theorem read_band_in {S : Shape} (M : Memref sig .tc .vmem S .f32) (f : M.view.ty.Contents (Elt F))
    (R : Rect S) (w : R.shape.Idx → Elt F .f32) (y : R.shape.Idx) :
    M.view.read (Elt F) (M.view.writes (Elt F) f [⟨R, w⟩]) (R.emb y) = w y :=
  View.read_writes_cons_emb M.view f R w [] y

/-- After one store over a rectangle, an index outside the rectangle reads what was there before. -/
theorem read_band_out {S : Shape} (M : Memref sig .tc .vmem S .f32) (f : M.view.ty.Contents (Elt F))
    (R : Rect S) (w : R.shape.Idx → Elt F .f32) (j : S.Idx) (hj : j ∉ R.set) :
    M.view.read (Elt F) (M.view.writes (Elt F) f [⟨R, w⟩]) j = M.view.read (Elt F) f j :=
  View.read_writes_apply_of_forall_not_mem M.view f j [⟨R, w⟩] fun p hp => by
    rw [List.mem_singleton] at hp; subst hp; exact hj

/-! ## The first layer's scratch fills band by band -/

variable (m : (ℓ : Loc nD τ sig) → Buf (Elt F) ℓ)

/-- Before any band is stored nothing is asked of the scratch. -/
theorem rowsDone_zero (c : Dev nD) (h : Vec F S10000x128 .f32) : rowsDone m c 0 h := by
  intro j hj
  omega

/-- After all 25 bands the scratch holds the whole first layer. -/
theorem rowsDone_full (c : Dev nD) (h : Vec F S10000x128 .f32) (hd : rowsDone m c 25 h) : h = H1 m c :=
  funext fun j => hd j (by have := Idealize.ShloMosaic.ValueIdx.idx2_lt0 j; omega)

/-- Storing band `t` over its 400 rows, and leaving every other row, extends the rows done by one band. -/
theorem rowsDone_step (c : Dev nD) (t : Fin cfg0.N) (ht : t.val < 25) (h3 : cond3 (grid0.coords t)) (h h' : Vec F S10000x128 .f32) (hprev : rowsDone m c t.val h)
    (hin : ∀ y : S400x128.Idx, h' ((Rect.unit (s := S10000x128) (k0_off1 (grid0.coords t)) S400x128.size (k0_off1_inb (grid0.coords t) h3)).emb y) = H1band m c t y)
    (hout : ∀ j : S10000x128.Idx, j ∉ (Rect.unit (s := S10000x128) (k0_off1 (grid0.coords t)) S400x128.size (k0_off1_inb (grid0.coords t) h3)).set → h' j = h j) :
    rowsDone m c (t.val + 1) h' := by
  intro j hj
  have hmod : t.val % 25 = t.val := Nat.mod_eq_of_lt ht
  by_cases hm : j ∈ (Rect.unit (s := S10000x128) (k0_off1 (grid0.coords t)) S400x128.size (k0_off1_inb (grid0.coords t) h3)).set
  · obtain ⟨y, rfl⟩ := (Rect.unit (s := S10000x128) (k0_off1 (grid0.coords t)) S400x128.size (k0_off1_inb (grid0.coords t) h3)).exists_idx_of_mem hm
    have hy0 : (y 0).val < 400 := (y 0).isLt
    have h0 : (((Rect.unit (s := S10000x128) (k0_off1 (grid0.coords t)) S400x128.size (k0_off1_inb (grid0.coords t) h3)).idx y) 0 : ℕ) = k0_off1 (grid0.coords t) 0 + 1 * (y 0).val := rfl
    have h1 : (((Rect.unit (s := S10000x128) (k0_off1 (grid0.coords t)) S400x128.size (k0_off1_inb (grid0.coords t) h3)).idx y) 1 : ℕ) = k0_off1 (grid0.coords t) 1 + 1 * (y 1).val := rfl
    have ho0 : k0_off1 (grid0.coords t) 0 = 400 * (t.val % 25) := by rw [off1_eq t]; rfl
    have ho1 : k0_off1 (grid0.coords t) 1 = 0 := by rw [off1_eq t]; rfl
    refine (hin y).trans ?_
    unfold H1
    refine congr (congrArg (H1band m c) (Fin.ext ?_)) (Shape.idx_ext₂ ?_ ?_)
    · show t.val = (((Rect.unit (s := S10000x128) (k0_off1 (grid0.coords t)) S400x128.size (k0_off1_inb (grid0.coords t) h3)).idx y) 0 : ℕ) / 400
      omega
    · show (y 0).val = (((Rect.unit (s := S10000x128) (k0_off1 (grid0.coords t)) S400x128.size (k0_off1_inb (grid0.coords t) h3)).idx y) 0 : ℕ) % 400
      omega
    · show (y 1).val = (((Rect.unit (s := S10000x128) (k0_off1 (grid0.coords t)) S400x128.size (k0_off1_inb (grid0.coords t) h3)).idx y) 1 : ℕ)
      omega
  · rw [hout j hm]
    apply hprev
    by_contra hge
    apply hm
    have hj1 := Idealize.ShloMosaic.ValueIdx.idx2_lt1 j
    rw [Rect.mem_set_unit, off1_eq t, Fin.forall_fin_two]
    refine ⟨⟨?_, ?_⟩, ⟨?_, ?_⟩⟩
    · show 400 * (t.val % 25) ≤ (j 0).val
      omega
    · show (j 0).val < 400 * (t.val % 25) + 400
      omega
    · show 0 ≤ (j 1).val
      omega
    · show (j 1).val < 0 + 128
      omega

end Cert.KernelIdeal.Hand

end
-- ==== Proof.KIBody.lean ====
import proofs.«134749_g33749853012156_cont_8to1_b_320_18_alg».proof.Proof.KIPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region invariant, point by point

Before the first point the two scratch buffers hold anything. After `n` points of phase 0 (`1 ≤ n ≤ 25`) the shared
scratch holds `S1 = x · W1` and the first layer's scratch holds the layer on its first `400 · n` rows. After a point of
phase 1 the shared scratch holds `S2 = H1 · W2` and the first layer's scratch the whole layer. -/

def PhiS (c : Dev nD) : (n : ℕ) → n ≤ cfg0.N → sProp 𝕄
  | 0, _ => Pipeline.ΦA spec0 c
  | n + 1, _ =>
    if n + 1 ≤ 25 then
      iprop(iprop(owns (c : Thread nD τ) scM0 fullShare (S1 m c) ∗ (∃ h, ⌜rowsDone m c (n + 1) h⌝ ∗ owns (c : Thread nD τ) scM1 fullShare h)) ∗ (∃ r, prngReg c r))
    else
      iprop(iprop(owns (c : Thread nD τ) scM0 fullShare (S2 m c) ∗ owns (c : Thread nD τ) scM1 fullShare (H1 m c)) ∗ (∃ r, prngReg c r))

theorem PhiS_zero (c : Dev nD) (n : ℕ) (h : n ≤ cfg0.N) (hz : n = 0) : PhiS m c n h = Pipeline.ΦA spec0 c := by
  subst hz; rfl

theorem PhiS_lo (c : Dev nD) (n : ℕ) (h : n ≤ cfg0.N) (h1 : 1 ≤ n) (h2 : n ≤ 25) :
    PhiS m c n h = iprop(iprop(owns (c : Thread nD τ) scM0 fullShare (S1 m c) ∗ (∃ h, ⌜rowsDone m c n h⌝ ∗ owns (c : Thread nD τ) scM1 fullShare h)) ∗ (∃ r, prngReg c r)) := by
  cases n with
  | zero => omega
  | succ n => exact if_pos h2

theorem PhiS_hi (c : Dev nD) (n : ℕ) (h : n ≤ cfg0.N) (h2 : 25 < n) :
    PhiS m c n h = iprop(iprop(owns (c : Thread nD τ) scM0 fullShare (S2 m c) ∗ owns (c : Thread nD τ) scM1 fullShare (H1 m c)) ∗ (∃ r, prngReg c r)) := by
  cases n with
  | zero => omega
  | succ n => exact if_neg (by omega)

/-! ## The pipeline's proof data -/

/-- The arrays as the region finds them; after the body at point `t` each input's buffer at its block and the three
    outputs' at the point's band of the representation and of the two heads (at the points of phase 0 the outputs are
    idle and not written back: what is stated there is consulted by nothing); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => repBand m c t
    | ⟨13, _⟩ => tauBand m c t
    | ⟨14, _⟩ => eBand m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem PhiS_succ (c : Dev nD) (t : Fin cfg0.N) :
    (dats m 0 c).Φ t.succ = PhiS m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = repBand m c t := by dsimp only [dats]
theorem after_13 (c : Dev nD) (t : Fin cfg0.N) : (dats m 0 c).after 13 t = tauBand m c t := by dsimp only [dats]
theorem after_14 (c : Dev nD) (t : Fin cfg0.N) : (dats m 0 c).after 14 t = eBand m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

theorem leaves_0 (c : Dev nD) (t : Fin cfg0.N) : (dats m 0 c).leavesExact 0 t = owns (c : Thread nD τ) (ms0 t) fullShare (iblk m c 0 t) := by
  unfold Dat.leavesExact; rw [live0 t, after_0]
theorem leaves_1 (c : Dev nD) (t : Fin cfg0.N) : (dats m 0 c).leavesExact 1 t = owns (c : Thread nD τ) (ms1 t) fullShare (iblk m c 1 t) := by
  unfold Dat.leavesExact; rw [live1 t, after_1]
theorem leaves_2 (c : Dev nD) (t : Fin cfg0.N) : (dats m 0 c).leavesExact 2 t = owns (c : Thread nD τ) (ms2 t) fullShare (iblk m c 2 t) := by
  unfold Dat.leavesExact; rw [live2 t, after_2]
theorem leaves_3 (c : Dev nD) (t : Fin cfg0.N) : (dats m 0 c).leavesExact 3 t = owns (c : Thread nD τ) (ms3 t) fullShare (iblk m c 3 t) := by
  unfold Dat.leavesExact; rw [live3 t, after_3]
theorem leaves_4 (c : Dev nD) (t : Fin cfg0.N) : (dats m 0 c).leavesExact 4 t = owns (c : Thread nD τ) (ms4 t) fullShare (iblk m c 4 t) := by
  unfold Dat.leavesExact; rw [live4 t, after_4]
theorem leaves_5 (c : Dev nD) (t : Fin cfg0.N) : (dats m 0 c).leavesExact 5 t = owns (c : Thread nD τ) (ms5 t) fullShare (iblk m c 5 t) := by
  unfold Dat.leavesExact; rw [live5 t, after_5]
theorem leaves_6 (c : Dev nD) (t : Fin cfg0.N) : (dats m 0 c).leavesExact 6 t = owns (c : Thread nD τ) (ms6 t) fullShare (iblk m c 6 t) := by
  unfold Dat.leavesExact; rw [live6 t, after_6]
theorem leaves_7 (c : Dev nD) (t : Fin cfg0.N) : (dats m 0 c).leavesExact 7 t = owns (c : Thread nD τ) (ms7 t) fullShare (iblk m c 7 t) := by
  unfold Dat.leavesExact; rw [live7 t, after_7]
theorem leaves_8 (c : Dev nD) (t : Fin cfg0.N) : (dats m 0 c).leavesExact 8 t = owns (c : Thread nD τ) (ms8 t) fullShare (iblk m c 8 t) := by
  unfold Dat.leavesExact; rw [live8 t, after_8]
theorem leaves_9 (c : Dev nD) (t : Fin cfg0.N) : (dats m 0 c).leavesExact 9 t = owns (c : Thread nD τ) (ms9 t) fullShare (iblk m c 9 t) := by
  unfold Dat.leavesExact; rw [live9 t, after_9]
theorem leaves_10 (c : Dev nD) (t : Fin cfg0.N) : (dats m 0 c).leavesExact 10 t = owns (c : Thread nD τ) (ms10 t) fullShare (iblk m c 10 t) := by
  unfold Dat.leavesExact; rw [live10 t, after_10]
theorem leaves_11 (c : Dev nD) (t : Fin cfg0.N) : (dats m 0 c).leavesExact 11 t = owns (c : Thread nD τ) (ms11 t) fullShare (iblk m c 11 t) := by
  unfold Dat.leavesExact; rw [live11 t, after_11]
theorem leaves_12 (c : Dev nD) (t : Fin cfg0.N) (h4 : cond4 (grid0.coords t)) : (dats m 0 c).leavesExact 12 t = owns (c : Thread nD τ) (ms12 t) fullShare (repBand m c t) := by
  unfold Dat.leavesExact; rw [live12 t h4, after_12]
theorem leaves_13 (c : Dev nD) (t : Fin cfg0.N) (h4 : cond4 (grid0.coords t)) : (dats m 0 c).leavesExact 13 t = owns (c : Thread nD τ) (ms13 t) fullShare (tauBand m c t) := by
  unfold Dat.leavesExact; rw [live13 t h4, after_13]
theorem leaves_14 (c : Dev nD) (t : Fin cfg0.N) (h4 : cond4 (grid0.coords t)) : (dats m 0 c).leavesExact 14 t = owns (c : Thread nD τ) (ms14 t) fullShare (eBand m c t) := by
  unfold Dat.leavesExact; rw [live14 t h4, after_14]

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- One point of phase 0 on the first layer's scratch: storing the point's band over its rows extends the rows done. -/
theorem band_step (c : Dev nD) (t : Fin cfg0.N) (ht : t.val < 25) (h3 : cond3 (grid0.coords t))
    (M : Memref sig .tc .vmem S10000x128 .f32) (hM : M.IsWhole) (h : Vec F S10000x128 .f32) (hprev : rowsDone m c t.val h)
    (w : Vec F S400x128 .f32) (hw : w = H1band m c t) :
    rowsDone m c (t.val + 1) (M.view.read (Elt F) (M.view.writes (Elt F) (hM.unread h)
      [⟨(Rect.unit (s := S10000x128) (k0_off1 (grid0.coords t)) S400x128.size (k0_off1_inb (grid0.coords t) h3)), w⟩])) := by
  subst hw
  refine rowsDone_step m c t ht h3 h (M.view.read (Elt F) (M.view.writes (Elt F) (hM.unread h) [⟨(Rect.unit (s := S10000x128) (k0_off1 (grid0.coords t)) S400x128.size (k0_off1_inb (grid0.coords t) h3)), H1band m c t⟩])) hprev ?_ ?_
  · intro y
    exact read_band_in M (hM.unread h) (Rect.unit (s := S10000x128) (k0_off1 (grid0.coords t)) S400x128.size (k0_off1_inb (grid0.coords t) h3)) (H1band m c t) y
  · intro j hj
    exact (read_band_out M (hM.unread h) (Rect.unit (s := S10000x128) (k0_off1 (grid0.coords t)) S400x128.size (k0_off1_inb (grid0.coords t) h3)) (H1band m c t) j hj).trans (congrFun (hM.read_unread h) j)

theorem sound_A (c : Dev nD) (t : Fin cfg0.N) (hA : t.val = 0) :
    bodyPre m c t ⊢ wp frame (wpE (defs₀ (F := F)) Variants.none c none) Set.univ (bodyAt0 t) (fun _ => bodyPost m c t) := by
  obtain rfl : t = t0 := Fin.ext hA
  unfold bodyPre bodyPost bodyAt0
  simp only [before_0, before_1, before_2, before_3, before_4, before_5, before_6, before_7, before_8, before_9, before_10, before_11]
  rewrite [show (dats m 0 c).owesAt () t0.succ = (dats m 0 c).owesAt () t0.castSucc from rfl]
  have hc1 : cond1 (grid0.coords t0) := (hcond1 t0).mpr rfl
  have hc2 : ¬cond2 (grid0.coords t0) := fun h => by have := (hcond2 t0).mp h; omega
  have hc3 : cond3 (grid0.coords t0) := (hcond3 t0).mpr (by decide)
  have hc4 : ¬cond4 (grid0.coords t0) := fun h => by have := (hcond4 t0).mp h; omega
  rewrite [leaves_0, leaves_1, leaves_2, leaves_3, leaves_4, leaves_5, leaves_6, leaves_7, leaves_8, leaves_9, leaves_10, leaves_11]
  rewrite [Dat.leavesExact_idle (dats m 0 c) 12 t0 (idle12 t0 hc4) (noFlush12 t0 hc4), Dat.leavesExact_idle (dats m 0 c) 13 t0 (idle13 t0 hc4) (noFlush13 t0 hc4), Dat.leavesExact_idle (dats m 0 c) 14 t0 (idle14 t0 hc4) (noFlush14 t0 hc4)]
  rewrite [PhiS_castSucc m c t0, PhiS_succ m c t0, PhiS_zero m c _ _ rfl, PhiA_eq, PhiS_lo m c (0 + 1) _ (by omega) (by omega)]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun_A c (grid0.coords t0) _ _ _ _ _ _ _ _ _ _ _ _ _ _ _ _ _ _ _ _ _ _ _ _ _ _ _ _ _ _ _ _ _ _ hc1 hc2 hc3 hc4 (adjB m c t0) (xB m c t0) (w1B m c t0) (b1B m c t0) e0 e1).2.2 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · isplitl [HS0]
      · unfold owns; iexists _; isplitr; swap; · iexact HS0
        ipureintro; rw [piecesA_s0]; exact read_whole_store _ _ _ _
      iexists _
      isplitr
      swap
      · unfold owns; iexists _; isplitr; swap; · iexact HS1
        ipureintro; rfl
      · ipureintro; rw [piecesA_s1]; exact band_step m c t0 (by show (0 : ℕ) < 25; omega) hc3 scM1 _ e1 (rowsDone_zero m c e1) _ rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

theorem sound_B (c : Dev nD) (t : Fin cfg0.N) (hA : t.val ≠ 0) (hB : t.val < 25) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rewrite [show (dats m 0 c).owesAt () t.succ = (dats m 0 c).owesAt () t.castSucc from rfl]
  have hc1 : ¬cond1 (grid0.coords t) := fun h => hA ((hcond1 t).mp h)
  have hc2 : ¬cond2 (grid0.coords t) := fun h => by have := (hcond2 t).mp h; omega
  have hc3 : cond3 (grid0.coords t) := (hcond3 t).mpr hB
  have hc4 : ¬cond4 (grid0.coords t) := fun h => by have := (hcond4 t).mp h; omega
  rewrite [leaves_0, leaves_1, leaves_2, leaves_3, leaves_4, leaves_5, leaves_6, leaves_7, leaves_8, leaves_9, leaves_10, leaves_11]
  rewrite [Dat.leavesExact_idle (dats m 0 c) 12 t (idle12 t hc4) (noFlush12 t hc4), Dat.leavesExact_idle (dats m 0 c) 13 t (idle13 t hc4) (noFlush13 t hc4), Dat.leavesExact_idle (dats m 0 c) 14 t (idle14 t hc4) (noFlush14 t hc4)]
  rewrite [PhiS_castSucc m c t, PhiS_succ m c t, PhiS_lo m c t.val _ (by omega) (by omega), PhiS_lo m c (t.val + 1) _ (by omega) (by omega)]
  iintro ⟨⟨⟨HS0, ⟨%h, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun_B c (grid0.coords t) _ _ _ _ _ _ _ _ _ _ _ _ _ _ _ _ _ _ _ _ _ _ _ _ _ _ _ _ _ _ _ _ _ _ hc1 hc2 hc3 hc4 (adjB m c t) (b1B m c t) (S1 m c) h).2 Set.univ _)
  isplitl [H0]; · iexact H0
  isplitl [H3]; · iexact H3
  isplitl [HS0]; · iexact HS0
  isplitl [HS1]; · iexact HS1
  iintro ⟨H0, H3, HS0, HS1⟩
  isplitl [HS0 HS1 Hg]
  · isplitl [HS0 HS1]
    · isplitl [HS0]; · iexact HS0
      iexists _
      isplitr
      swap
      · unfold owns; iexists _; isplitr; swap; · iexact HS1
        ipureintro; rfl
      · ipureintro; rw [piecesB]; exact band_step m c t hB hc3 scM1 _ h hd _ rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexists _; iexact H14

theorem sound_C (c : Dev nD) (t : Fin cfg0.N) (hC : t.val = 25) :
    bodyPre m c t ⊢ wp frame (wpE (defs₀ (F := F)) Variants.none c none) Set.univ (bodyAt0 t) (fun _ => bodyPost m c t) := by
  obtain rfl : t = t25 := Fin.ext hC
  unfold bodyPre bodyPost bodyAt0
  simp only [before_0, before_1, before_2, before_3, before_4, before_5, before_6, before_7, before_8, before_9, before_10, before_11]
  rewrite [show (dats m 0 c).owesAt () t25.succ = (dats m 0 c).owesAt () t25.castSucc from rfl]
  have hc1 : ¬cond1 (grid0.coords t25) := fun h => by have := (hcond1 t25).mp h; omega
  have hc2 : cond2 (grid0.coords t25) := (hcond2 t25).mpr rfl
  have hc3 : ¬cond3 (grid0.coords t25) := fun h => by have := (hcond3 t25).mp h; omega
  have hc4 : cond4 (grid0.coords t25) := (hcond4 t25).mpr (by decide)
  rewrite [leaves_0, leaves_1, leaves_2, leaves_3, leaves_4, leaves_5, leaves_6, leaves_7, leaves_8, leaves_9, leaves_10, leaves_11]
  rewrite [leaves_12 m c t25 hc4, leaves_13 m c t25 hc4, leaves_14 m c t25 hc4]
  rewrite [PhiS_castSucc m c t25, PhiS_succ m c t25, PhiS_lo m c (25 : ℕ) _ (by omega) (by omega), PhiS_hi m c (25 + 1) _ (by omega)]
  iintro ⟨⟨⟨HS0, ⟨%h, %hd, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl : h = H1 m c := rowsDone_full m c h hd
  iapply ((kernelRun_C c (grid0.coords t25) _ _ _ _ _ _ _ _ _ _ _ _ _ _ _ _ _ _ _ _ _ _ _ _ _ _ _ _ _ _ _ _ _ _ hc1 hc2 hc3 hc4 (adjB m c t25) (w2B m c t25) (b2B m c t25) (wt1B m c t25) (bt1B m c t25) (wt2B m c t25) (bt2B m c t25) (wpB m c t25) (bpB m c t25) _ _ _ (S1 m c) (H1 m c)).2.2.2.2 Set.univ _)
  isplitl [H0]; · iexact H0
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  iintro ⟨H0, H4, H5, H6, H7, H8, H9, H10, H11, H12, H13, H14, HS0, HS1⟩
  isplitl [HS0 HS1 Hg]
  · isplitl [HS0 HS1]
    · isplitl [HS0]
      · unfold owns; iexists _; isplitr; swap; · iexact HS0
        ipureintro; rw [piecesC_s0]; exact read_whole_store _ _ _ _
      iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; rw [piecesC_12]; exact read_whole_store _ _ _ _
  isplitl [H13]
  · unfold owns; iexists _; isplitr; swap; · iexact H13
    ipureintro; rw [piecesC_13]; exact read_whole_store _ _ _ _
  unfold owns; iexists _; isplitr; swap; · iexact H14
  ipureintro; rw [piecesC_14]; exact read_whole_store _ _ _ _

theorem sound_D (c : Dev nD) (t : Fin cfg0.N) (hD : 25 < t.val) :
    bodyPre m c t ⊢ wp frame (wpE (defs₀ (F := F)) Variants.none c none) Set.univ (bodyAt0 t) (fun _ => bodyPost m c t) := by
  have hN : t.val < 50 := lt_of_lt_of_eq t.isLt (show cfg0.N = 50 from N_0)
  unfold bodyPre bodyPost bodyAt0
  simp only [before_0, before_1, before_2, before_3, before_4, before_5, before_6, before_7, before_8, before_9, before_10, before_11]
  rewrite [show (dats m 0 c).owesAt () t.succ = (dats m 0 c).owesAt () t.castSucc from rfl]
  have hc1 : ¬cond1 (grid0.coords t) := fun h => by have := (hcond1 t).mp h; omega
  have hc2 : ¬cond2 (grid0.coords t) := fun h => by have := (hcond2 t).mp h; omega
  have hc3 : ¬cond3 (grid0.coords t) := fun h => by have := (hcond3 t).mp h; omega
  have hc4 : cond4 (grid0.coords t) := (hcond4 t).mpr (by omega)
  rewrite [leaves_0, leaves_1, leaves_2, leaves_3, leaves_4, leaves_5, leaves_6, leaves_7, leaves_8, leaves_9, leaves_10, leaves_11]
  rewrite [leaves_12 m c t hc4, leaves_13 m c t hc4, leaves_14 m c t hc4]
  rewrite [PhiS_castSucc m c t, PhiS_succ m c t, PhiS_hi m c t.val _ hD, PhiS_hi m c (t.val + 1) _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun_D c (grid0.coords t) _ _ _ _ _ _ _ _ _ _ _ _ _ _ _ _ _ _ _ _ _ _ _ _ _ _ _ _ _ _ _ _ _ _ hc1 hc2 hc3 hc4 (adjB m c t) (b2B m c t) (wt1B m c t) (bt1B m c t) (wt2B m c t) (bt2B m c t) (wpB m c t) (bpB m c t) _ _ _ (S2 m c)).2.2.2 Set.univ _)
  isplitl [H0]; · iexact H0
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  iintro ⟨H0, H5, H6, H7, H8, H9, H10, H11, H12, H13, H14, HS0⟩
  isplitl [HS0 HS1 Hg]
  · isplitl [HS0 HS1]
    · isplitl [HS0]; · iexact HS0
      iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; swap; · iexact H12
    ipureintro; rw [piecesD_12]; exact read_whole_store _ _ _ _
  isplitl [H13]
  · unfold owns; iexists _; isplitr; swap; · iexact H13
    ipureintro; rw [piecesD_13]; exact read_whole_store _ _ _ _
  unfold owns; iexists _; isplitr; swap; · iexact H14
  ipureintro; rw [piecesD_14]; exact read_whole_store _ _ _ _

/-- The body at any point: the four shapes of point by where the point lies on the grid. -/
theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_A m c t hA
  · by_cases hB : t.val < 25
    · exact sound_B m c t hA hB
    · by_cases hC : t.val = 25
      · exact sound_C m c t hC
      · exact sound_D m c t (by omega)

theorem body_obligation (c : Dev nD) : BodyObligation (dats (F := F) m 0 c) (defs₀ (F := F)) Variants.none () Set.univ := fun t => by
  rw [bigSep_W0, bigSep_W0]
  exact sound_body m c t

/-- Before the first point the invariant is the class's: the scratch buffers at anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the named contents of the scratch buffers are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_hi m c _ _ (by rw [Fin.val_last]; have : cfg0.N = 50 := N_0; omega), PhiA_eq]
  iintro ⟨⟨HS0, HS1⟩, Hg⟩
  isplitl [HS0 HS1]
  · isplitl [HS0]; · iexists _; iexact HS0
    iexists _; iexact HS1
  iexact Hg

set_option backward.isDefEq.respectTransparency.types false in
/-- Every weakly fair execution of @main terminates, nothing faulting; at the end every array of the pipeline holds what
    the write-backs of the proof data's blocks leave, and every other unscoped buffer what the host lines after the region
    leave from the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.KIPay.lean ====
/- The kernel body's payloads read at an index, over the extended reals (every operation exact):
   each matrix product is the sum over its contracted axis, a bias row is added along every row,
   the rectifier is the maximum with zero, and the last payload is the logistic function of an
   affine form. -/
import proofs.«134749_g33749853012156_cont_8to1_b_320_18_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KIPay

open Cert.KernelIdeal Cert.KernelIdeal.Gen Idealize.ShloMosaic Idealize.ShloMosaic.ValueIdx

variable [Cert.KernelIdeal.Facts]

/-! ### The product `S10000x128 · S128x128` -/

theorem lhs_xw_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_xw_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_xw_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into the zero accumulator, read at row `p` and column `q`: the sum over the
    contracted axis of the left operand's row times the right operand's column. -/
theorem matmul_xw_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  refine (Ideal.matmul_constant_zero_apply dot_S10000x128_S128x128_S10000x128_1_0_0_1_n_n none l r (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

/-! ### The product `S400x10000 · S10000x128` -/

theorem lhs_as_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_as_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_as_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_as_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The product into the zero accumulator, read at row `p` and column `q`: the sum over the
    contracted axis of the left operand's row times the right operand's column. -/
theorem matmul_as_apply (l : FVec Ideal S400x10000 .f32) (r : FVec Ideal S10000x128 .f32) (p : Fin 400) (q : Fin 128) :
    matmul dot_S400x10000_S10000x128_S400x128_1_0_0_1_n_n none l r (constant (F := Ideal) S400x128 .f32 0x00000000#32) (ix2 p q)
      = ∑ k : Fin 10000, l (ix2 p k) * r (ix2 k q) := by
  refine (Ideal.matmul_constant_zero_apply dot_S400x10000_S10000x128_S400x128_1_0_0_1_n_n none l r (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_as_0 _ _
    | ⟨1, _⟩ => exact (lhs_as_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_as_0 _ _).trans hk
    | ⟨1, _⟩ => exact rhs_as_1 _ _)
  rw [el, er]

/-! ### The product `S400x128 · S128x128` -/

theorem lhs_hw_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_hw_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_hw_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_hw_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The product into the zero accumulator, read at row `p` and column `q`: the sum over the
    contracted axis of the left operand's row times the right operand's column. -/
theorem matmul_hw_apply (l : FVec Ideal S400x128 .f32) (r : FVec Ideal S128x128 .f32) (p : Fin 400) (q : Fin 128) :
    matmul dot_S400x128_S128x128_S400x128_1_0_0_1_n_n none l r (constant (F := Ideal) S400x128 .f32 0x00000000#32) (ix2 p q)
      = ∑ k : Fin 128, l (ix2 p k) * r (ix2 k q) := by
  refine (Ideal.matmul_constant_zero_apply dot_S400x128_S128x128_S400x128_1_0_0_1_n_n none l r (ix2 p q)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_hw_0 _ _
    | ⟨1, _⟩ => exact (lhs_hw_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_hw_0 _ _).trans hk
    | ⟨1, _⟩ => exact rhs_hw_1 _ _)
  rw [el, er]

/-! ### The product `S400x128 · S128x1` -/

theorem lhs_hv_0 (i : S400x1.Idx) (q : dot_S400x128_S128x1_S400x1_1_0_0_1_n_n.contr.Idx) :
    (dot_S400x128_S128x1_S400x1_1_0_0_1_n_n.lhsIdx i q 0).val = (i 0).val := by
  unfold DotDims.lhsIdx
  rw [dif_neg (show ¬(0 : Fin S400x128.rank) ∈ dot_S400x128_S128x1_S400x1_1_0_0_1_n_n.lhsBatch by decide), dif_pos (show (0 : Fin S400x128.rank) ∈ dot_S400x128_S128x1_S400x1_1_0_0_1_n_n.lhsNonContracting by decide)]
  rfl
theorem lhs_hv_1 (i : S400x1.Idx) (q : dot_S400x128_S128x1_S400x1_1_0_0_1_n_n.contr.Idx) :
    (dot_S400x128_S128x1_S400x1_1_0_0_1_n_n.lhsIdx i q 1).val = (q ⟨0, by decide⟩).val :=
  dot_S400x128_S128x1_S400x1_1_0_0_1_n_n.lhsIdx_val_of_single rfl i q
theorem rhs_hv_0 (i : S400x1.Idx) (q : dot_S400x128_S128x1_S400x1_1_0_0_1_n_n.contr.Idx) :
    (dot_S400x128_S128x1_S400x1_1_0_0_1_n_n.rhsIdx i q 0).val = (q ⟨0, by decide⟩).val :=
  dot_S400x128_S128x1_S400x1_1_0_0_1_n_n.rhsIdx_val_of_single rfl i q
theorem rhs_hv_1 (i : S400x1.Idx) (q : dot_S400x128_S128x1_S400x1_1_0_0_1_n_n.contr.Idx) :
    (dot_S400x128_S128x1_S400x1_1_0_0_1_n_n.rhsIdx i q 1).val = (i 1).val := by
  unfold DotDims.rhsIdx
  rw [dif_neg (show ¬(1 : Fin S128x1.rank) ∈ dot_S400x128_S128x1_S400x1_1_0_0_1_n_n.rhsBatch by decide), dif_pos (show (1 : Fin S128x1.rank) ∈ dot_S400x128_S128x1_S400x1_1_0_0_1_n_n.rhsNonContracting by decide)]
  rfl

/-- The product into the zero accumulator, read at row `p` and column `q`: the sum over the
    contracted axis of the left operand's row times the right operand's column. -/
theorem matmul_hv_apply (l : FVec Ideal S400x128 .f32) (r : FVec Ideal S128x1 .f32) (p : Fin 400) (q : Fin 1) :
    matmul dot_S400x128_S128x1_S400x1_1_0_0_1_n_n none l r (constant (F := Ideal) S400x1 .f32 0x00000000#32) (ix2 p q)
      = ∑ k : Fin 128, l (ix2 p k) * r (ix2 k q) := by
  refine (Ideal.matmul_constant_zero_apply dot_S400x128_S128x1_S400x1_1_0_0_1_n_n none l r (ix2 p q)).trans ?_
  rw [← Equiv.sum_comp (contrEquiv1 dot_S400x128_S128x1_S400x1_1_0_0_1_n_n 128 rfl rfl).symm]
  refine Finset.sum_congr rfl fun k _ => ?_
  have hk := contrEquiv1_symm_val dot_S400x128_S128x1_S400x1_1_0_0_1_n_n 128 rfl rfl k
  have el : dot_S400x128_S128x1_S400x1_1_0_0_1_n_n.lhsIdx (ix2 p q) ((contrEquiv1 dot_S400x128_S128x1_S400x1_1_0_0_1_n_n 128 rfl rfl).symm k) = ix2 p k := funext fun a => Fin.ext (by
    match a with
    | ⟨0, _⟩ => exact lhs_hv_0 _ _
    | ⟨1, _⟩ => exact (lhs_hv_1 _ _).trans hk)
  have er : dot_S400x128_S128x1_S400x1_1_0_0_1_n_n.rhsIdx (ix2 p q) ((contrEquiv1 dot_S400x128_S128x1_S400x1_1_0_0_1_n_n 128 rfl rfl).symm k) = ix2 k q := funext fun a => Fin.ext (by
    match a with
    | ⟨0, _⟩ => exact (rhs_hv_0 _ _).trans hk
    | ⟨1, _⟩ => exact rhs_hv_1 _ _)
  rw [el, er]

/-! ## The payloads -/

/-- The feature transform: row `r` of `x` against column `c` of `w`. -/
theorem pay1_apply (x : Vec Ideal S10000x128 .f32) (w : Vec Ideal S128x128 .f32) (r : Fin 10000) (c : Fin 128) :
    k0_pay1 (F := Ideal) x w (ix2 r c) = ∑ k : Fin 128, x (ix2 r k) * w (ix2 k c) := by
  unfold k0_pay1
  rw [shapeCast_self]
  exact matmul_xw_apply x w r c

theorem pay2_apply (x : Vec Ideal S10000x128 .f32) (w : Vec Ideal S128x128 .f32) (r : Fin 10000) (c : Fin 128) :
    k0_pay2 (F := Ideal) x w (ix2 r c) = ∑ k : Fin 128, x (ix2 r k) * w (ix2 k c) := by
  unfold k0_pay2
  rw [shapeCast_self]
  exact matmul_xw_apply x w r c

/-- The aggregation: row `y` of the adjacency block against column `c` of the features. -/
theorem pay3_apply (a : Vec Ideal S400x10000 .f32) (s : Vec Ideal S10000x128 .f32) (y : Fin 400) (c : Fin 128) :
    k0_pay3 (F := Ideal) a s (ix2 y c) = ∑ k : Fin 10000, a (ix2 y k) * s (ix2 k c) := by
  unfold k0_pay3
  exact matmul_as_apply a s y c

/-- The aggregation plus the bias row, rectified. -/
theorem pay5_apply (a : Vec Ideal S400x10000 .f32) (s : Vec Ideal S10000x128 .f32) (b : Vec Ideal S1x128 .f32) (y : Fin 400) (c : Fin 128) :
    k0_pay5 (F := Ideal) a s b (ix2 y c) = max ((∑ k : Fin 10000, a (ix2 y k) * s (ix2 k c)) + b (ix2 0 c)) 0 := by
  unfold k0_pay5
  rw [maximumf_apply, addf_apply, broadcast_apply, shapeCast_self, broadcastTo_1b_ab_apply, pay3_apply]
  show max _ (Ideal.ofBits .f32 0x00000000#32) = _
  rw [Ideal.ofBits_zero_f32]

theorem pay4_apply (a : Vec Ideal S400x10000 .f32) (s : Vec Ideal S10000x128 .f32) (b : Vec Ideal S1x128 .f32) (y : Fin 400) (c : Fin 128) :
    k0_pay4 (F := Ideal) a s b (ix2 y c) = max ((∑ k : Fin 10000, a (ix2 y k) * s (ix2 k c)) + b (ix2 0 c)) 0 := by
  unfold k0_pay4
  rw [shapeCast_self, maximumf_apply, addf_apply, broadcast_apply, shapeCast_self, broadcastTo_1b_ab_apply, pay3_apply]
  show max _ (Ideal.ofBits .f32 0x00000000#32) = _
  rw [Ideal.ofBits_zero_f32]

/-- The first head: a rectified hidden layer of the rectified aggregation, then a single output
    column plus its scalar bias. -/
theorem pay6_apply (a : Vec Ideal S400x10000 .f32) (s : Vec Ideal S10000x128 .f32) (b : Vec Ideal S1x128 .f32)
    (wt1 : Vec Ideal S128x128 .f32) (bt1 : Vec Ideal S1x128 .f32) (wt2 : Vec Ideal S128x1 .f32) (bt2 : Vec Ideal S1x1 .f32) (y : Fin 400) :
    k0_pay6 (F := Ideal) a s b wt1 bt1 wt2 bt2 (ix2 y 0)
      = (∑ k : Fin 128, max ((∑ k' : Fin 128, k0_pay5 (F := Ideal) a s b (ix2 y k') * wt1 (ix2 k' k)) + bt1 (ix2 0 k)) 0 * wt2 (ix2 k 0)) + bt2 (ix2 0 0) := by
  unfold k0_pay6
  rw [addf_apply, broadcastTo_1b_ab_apply, shapeCast_self bt2, shapeCast_self bt1]
  refine congrArg (· + bt2 (ix2 0 0)) ?_
  refine (matmul_hv_apply _ wt2 y 0).trans ?_
  refine Finset.sum_congr rfl fun k _ => ?_
  refine congrArg (· * wt2 (ix2 k 0)) ?_
  rw [maximumf_apply, addf_apply, broadcast_apply, broadcastTo_1b_ab_apply]
  show max _ (Ideal.ofBits .f32 0x00000000#32) = _
  rw [Ideal.ofBits_zero_f32]
  exact congrArg (fun t => max (t + bt1 (ix2 0 k)) 0) (matmul_hw_apply (k0_pay5 (F := Ideal) a s b) wt1 y k)

/-- The second head: the logistic function of one output column of the rectified aggregation plus
    its scalar bias. -/
theorem pay7_apply (a : Vec Ideal S400x10000 .f32) (s : Vec Ideal S10000x128 .f32) (b : Vec Ideal S1x128 .f32)
    (wp : Vec Ideal S128x1 .f32) (bp : Vec Ideal S1x1 .f32) (y : Fin 400) :
    k0_pay7 (F := Ideal) a s b wp bp (ix2 y 0)
      = Ideal.logistic ((∑ k : Fin 128, k0_pay5 (F := Ideal) a s b (ix2 y k) * wp (ix2 k 0)) + bp (ix2 0 0)) := by
  unfold k0_pay7
  show Ideal.logistic _ = _
  refine congrArg Ideal.logistic ?_
  rw [addf_apply, shapeCast_self, broadcastTo_1b_ab_apply]
  exact congrArg (· + bp (ix2 0 0)) (matmul_hv_apply (k0_pay5 (F := Ideal) a s b) wp y 0)

end Cert.KIPay
-- ==== Proof.Spec.lean ====
import Idealize.ShloMosaic.PureOps.Ideal
import Idealize.ShloMosaic.Lib.ValueIdx

/-!
  The mathematics both programs compute, entry by entry, on the extended reals.

  With `x : 10000×128`, a dense `adj : 10000×10000`, two graph-convolution weights `W1, W2 : 128×128` with biases
  `b1, b2 : 128`, a two-layer head (`Wt1 : 128×128`, `bt1 : 128`, `Wt2 : 128×1`, `bt2 : 1`) and a logistic head
  (`Wp : 128×1`, `bp : 1`):

    s1  = x · W1                      h1  = max (adj · s1 + b1) 0
    s2  = h1 · W2                     rep = max (adj · s2 + b2) 0
    hid = max (rep · Wt1 + bt1) 0     tau = hid · Wt2 + bt2
    prop = logistic (rep · Wp + bp)

  every product a plain sum over the contracted axis, in the association written (the adjacency multiplies the
  already-projected features). Nothing here needs the entries to be finite: both programs form exactly these sums
  and maxima in this order, so no law of the extended reals beyond reflexivity is used to join them.
-/

noncomputable section

namespace Cert.Spec

open Idealize.ShloMosaic Idealize.ShloMosaic.ValueIdx

abbrev Mat (a b : Nat) : Type := FVec Ideal (⟨2, ![a, b]⟩ : Shape) .f32
abbrev Row (a : Nat) : Type := FVec Ideal (⟨1, ![a]⟩ : Shape) .f32

variable (x : Mat 10000 128) (adj : Mat 10000 10000) (W1 : Mat 128 128) (b1 : Row 128) (W2 : Mat 128 128) (b2 : Row 128)
  (Wt1 : Mat 128 128) (bt1 : Row 128) (Wt2 : Mat 128 1) (bt2 : Row 1) (Wp : Mat 128 1) (bp : Row 1)

/-- The projected input features `x · W1`. -/
def s1 (r : Fin 10000) (c : Fin 128) : EReal := ∑ k : Fin 128, x (ix2 r k) * W1 (ix2 k c)

/-- The first layer: the adjacency applied to the projected features, the bias, the rectifier. -/
def h1 (r : Fin 10000) (c : Fin 128) : EReal :=
  max ((∑ k : Fin 10000, adj (ix2 r k) * s1 x W1 k c) + b1 (ix1 c)) 0

/-- The first layer projected by the second weight. -/
def s2 (r : Fin 10000) (c : Fin 128) : EReal := ∑ k : Fin 128, h1 x adj W1 b1 r k * W2 (ix2 k c)

/-- The second layer: the representation both programs return. -/
def rep (r : Fin 10000) (c : Fin 128) : EReal :=
  max ((∑ k : Fin 10000, adj (ix2 r k) * s2 x adj W1 b1 W2 k c) + b2 (ix1 c)) 0

/-- The hidden layer of the effect head. -/
def hid (r : Fin 10000) (c : Fin 128) : EReal :=
  max ((∑ k : Fin 128, rep x adj W1 b1 W2 b2 r k * Wt1 (ix2 k c)) + bt1 (ix1 c)) 0

/-- The effect head's output, one number per node. -/
def tau (r : Fin 10000) : EReal :=
  (∑ k : Fin 128, hid x adj W1 b1 W2 b2 Wt1 bt1 r k * Wt2 (ix2 k 0)) + bt2 (ix1 0)

/-- The propensity head: the logistic function of a linear read-out of the representation. -/
def prop (r : Fin 10000) : EReal :=
  Ideal.logistic ((∑ k : Fin 128, rep x adj W1 b1 W2 b2 r k * Wp (ix2 k 0)) + bp (ix1 0))

end Cert.Spec

end
-- ==== Proof.KIValue.lean ====
import proofs.«134749_g33749853012156_cont_8to1_b_320_18_alg».proof.Proof.KIData
import proofs.«134749_g33749853012156_cont_8to1_b_320_18_alg».proof.Proof.KIPay
import proofs.«134749_g33749853012156_cont_8to1_b_320_18_alg».proof.Proof.Spec
import Idealize.ShloMosaic.Lib.Pipeline.Value
import Idealize.ShloMosaic.Lib.ValueIdx
import Idealize.ShloMosaic.Lib.StableHlo.Run
import Idealize.ShloMosaic.Lib.ValueLayout

/-!
  The kernel's scratch and output contents, entry by entry, are the mathematics of `Cert.Spec` of the launched arrays.

  First each window's block at a point is read off the launched arrays: the adjacency window hands point `t` the band
  of 400 rows numbered `t % 25` (a block's coordinate in its array is the block index times the block's extent plus
  the coordinate inside the block, and the index map is decided once over the fifty points); every other window is its
  whole array at block index zero, the five biases being the launched vectors reshaped to one row by the host
  operations before the region. Then the six contents are opened inside out with the payloads' index forms: the
  projected features, the first layer (row `r` is row `r % 400` of band `r / 400`), its projection, and, for a point of
  the second phase, the band of the representation and of the two heads (band `t - 25`).
-/

set_option maxRecDepth 16384

noncomputable section

namespace Cert.KernelIdeal.HandValue

open Cert.KernelIdeal Cert.KernelIdeal.Gen Cert.KernelIdeal.Hand Idealize.ShloMosaic Idealize.ShloMosaic.ValueIdx
  Idealize.ShloMosaic.TcCoe Idealize.SL.Sem

variable (m : (ℓ : Loc nD τ sig) → Buf (Elt Ideal) ℓ) (c : Dev nD)

/-! ### The twelve launched arrays, at the specification's types -/

abbrev aX : Cert.Spec.Mat 10000 128 := m ((c : Thread nD τ).loc main_arg0)
abbrev aAdj : Cert.Spec.Mat 10000 10000 := m ((c : Thread nD τ).loc main_arg1)
abbrev aW1 : Cert.Spec.Mat 128 128 := m ((c : Thread nD τ).loc main_arg2)
abbrev aB1 : Cert.Spec.Row 128 := m ((c : Thread nD τ).loc main_arg3)
abbrev aW2 : Cert.Spec.Mat 128 128 := m ((c : Thread nD τ).loc main_arg4)
abbrev aB2 : Cert.Spec.Row 128 := m ((c : Thread nD τ).loc main_arg5)
abbrev aWt1 : Cert.Spec.Mat 128 128 := m ((c : Thread nD τ).loc main_arg6)
abbrev aBt1 : Cert.Spec.Row 128 := m ((c : Thread nD τ).loc main_arg7)
abbrev aWt2 : Cert.Spec.Mat 128 1 := m ((c : Thread nD τ).loc main_arg8)
abbrev aBt2 : Cert.Spec.Row 1 := m ((c : Thread nD τ).loc main_arg9)
abbrev aWp : Cert.Spec.Mat 128 1 := m ((c : Thread nD τ).loc main_arg10)
abbrev aBp : Cert.Spec.Row 1 := m ((c : Thread nD τ).loc main_arg11)

/-! ### The windows' index maps over the grid -/

/-- The adjacency window walks the bands: its block index is the point's band. -/
theorem idx0 : ∀ t : Fin cfg0.N, win0_0.index t (0 : Fin 2) = t.val % 25 ∧ win0_0.index t (1 : Fin 2) = 0 :=
  (by decide +kernel : ∀ t : Fin grid0.N, win0_0.index t (0 : Fin 2) = t.val % 25 ∧ win0_0.index t (1 : Fin 2) = 0)

theorem adjB_apply (t : Fin cfg0.N) (y : Fin 400) (k : Fin 10000) :
    adjB m c t (ix2 y k) = aAdj m c (ix2 (⟨400 * (t.val % 25) + y.val, by have := y.isLt; omega⟩ : Fin 10000) k) := by
  unfold adjB Gen.iblk
  show V m c main_arg1 (((cfg0.win 0).blk t).view.emb (ix2 y k)) = _
  rw [V_main_arg1]
  refine congrArg (m ((c : Thread nD τ).loc main_arg1)) ?_
  obtain ⟨e0, e1⟩ := idx0 t
  funext a; apply Fin.ext
  match a with
  | ⟨0, _⟩ => show win0_0.index t (0 : Fin 2) * 400 + 1 * y.val = 400 * (t.val % 25) + y.val; omega
  | ⟨1, _⟩ => show win0_0.index t (1 : Fin 2) * 10000 + 1 * k.val = k.val; omega

/-- Every other window is its whole array at every point: its block index is zero on both axes. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-! ### The whole-array windows: the block is the array as launched -/

theorem xB_eq (t : Fin cfg0.N) : xB m c t = aX m c := by
  funext j
  unfold xB Gen.iblk
  show V m c main_arg0 (((cfg0.win 1).blk t).view.emb j) = _
  rw [V_main_arg0]
  refine congrArg (m ((c : Thread nD τ).loc main_arg0)) ?_
  obtain ⟨e0, e1⟩ := idx1 t
  funext a; apply Fin.ext
  match a with
  | ⟨0, _⟩ => show win0_1.index t (0 : Fin 2) * 10000 + 1 * (j 0).val = (j 0).val; omega
  | ⟨1, _⟩ => show win0_1.index t (1 : Fin 2) * 128 + 1 * (j 1).val = (j 1).val; omega

theorem w1B_eq (t : Fin cfg0.N) : w1B m c t = aW1 m c := by
  funext j
  unfold w1B Gen.iblk
  show V m c main_arg2 (((cfg0.win 2).blk t).view.emb j) = _
  rw [V_main_arg2]
  refine congrArg (m ((c : Thread nD τ).loc main_arg2)) ?_
  obtain ⟨e0, e1⟩ := idx2 t
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem w2B_eq (t : Fin cfg0.N) : w2B m c t = aW2 m c := by
  funext j
  unfold w2B Gen.iblk
  show V m c main_arg4 (((cfg0.win 4).blk t).view.emb j) = _
  rw [V_main_arg4]
  refine congrArg (m ((c : Thread nD τ).loc main_arg4)) ?_
  obtain ⟨e0, e1⟩ := idx4 t
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem wt1B_eq (t : Fin cfg0.N) : wt1B m c t = aWt1 m c := by
  funext j
  unfold wt1B Gen.iblk
  show V m c main_arg6 (((cfg0.win 6).blk t).view.emb j) = _
  rw [V_main_arg6]
  refine congrArg (m ((c : Thread nD τ).loc main_arg6)) ?_
  obtain ⟨e0, e1⟩ := idx6 t
  funext a; apply Fin.ext
  match a with
  | ⟨0, _⟩ => show win0_6.index t (0 : Fin 2) * 128 + 1 * (j 0).val = (j 0).val; omega
  | ⟨1, _⟩ => show win0_6.index t (1 : Fin 2) * 128 + 1 * (j 1).val = (j 1).val; omega

theorem wt2B_eq (t : Fin cfg0.N) : wt2B m c t = aWt2 m c := by
  funext j
  unfold wt2B Gen.iblk
  show V m c main_arg8 (((cfg0.win 8).blk t).view.emb j) = _
  rw [V_main_arg8]
  refine congrArg (m ((c : Thread nD τ).loc main_arg8)) ?_
  obtain ⟨e0, e1⟩ := idx8 t
  funext a; apply Fin.ext
  match a with
  | ⟨0, _⟩ => show win0_8.index t (0 : Fin 2) * 128 + 1 * (j 0).val = (j 0).val; omega
  | ⟨1, _⟩ => show win0_8.index t (1 : Fin 2) * 1 + 1 * (j 1).val = (j 1).val; omega

theorem wpB_eq (t : Fin cfg0.N) : wpB m c t = aWp m c := by
  funext j
  unfold wpB Gen.iblk
  show V m c main_arg10 (((cfg0.win 10).blk t).view.emb j) = _
  rw [V_main_arg10]
  refine congrArg (m ((c : Thread nD τ).loc main_arg10)) ?_
  obtain ⟨e0, e1⟩ := idx10 t
  funext a; apply Fin.ext
  match a with
  | ⟨0, _⟩ => show win0_10.index t (0 : Fin 2) * 128 + 1 * (j 0).val = (j 0).val; omega
  | ⟨1, _⟩ => show win0_10.index t (1 : Fin 2) * 1 + 1 * (j 1).val = (j 1).val; omega

/-! ### The bias windows: the block is the bias as launched, reshaped to a row by the host -/

theorem V_main_v0 : V m c main_v0 = shapeCast S1x128 (m ((c : Thread nD τ).loc main_arg3)) shapeCasts_S128_S1x128 := by
  show StableHlo.after hostOps0 (fun b => m (c, b)) (Proc.devRef .tc main_v0) = _
  after_results
  rfl

theorem b1B_apply (t : Fin cfg0.N) (k : Fin 128) : b1B m c t (ix2 0 k) = aB1 m c (ix1 k) := by
  unfold b1B Gen.iblk
  show V m c main_v0 (((cfg0.win 3).blk t).view.emb (ix2 0 k)) = _
  have he : ((cfg0.win 3).blk t).view.emb (ix2 0 k) = ix2 (0 : Fin 1) k := by
    obtain ⟨e0, e1⟩ := idx3 t
    funext a; apply Fin.ext
    match a with
    | ⟨0, _⟩ => show win0_3.index t (0 : Fin 2) * 1 + 1 * 0 = 0; omega
    | ⟨1, _⟩ => show win0_3.index t (1 : Fin 2) * 128 + 1 * k.val = k.val; omega
  rw [he, V_main_v0]
  exact shapeCast_a_1a_apply _ _ 0 k

theorem V_main_v1 : V m c main_v1 = shapeCast S1x128 (m ((c : Thread nD τ).loc main_arg5)) shapeCasts_S128_S1x128 := by
  show StableHlo.after hostOps0 (fun b => m (c, b)) (Proc.devRef .tc main_v1) = _
  after_results
  rfl

theorem b2B_apply (t : Fin cfg0.N) (k : Fin 128) : b2B m c t (ix2 0 k) = aB2 m c (ix1 k) := by
  unfold b2B Gen.iblk
  show V m c main_v1 (((cfg0.win 5).blk t).view.emb (ix2 0 k)) = _
  have he : ((cfg0.win 5).blk t).view.emb (ix2 0 k) = ix2 (0 : Fin 1) k := by
    obtain ⟨e0, e1⟩ := idx5 t
    funext a; apply Fin.ext
    match a with
    | ⟨0, _⟩ => show win0_5.index t (0 : Fin 2) * 1 + 1 * 0 = 0; omega
    | ⟨1, _⟩ => show win0_5.index t (1 : Fin 2) * 128 + 1 * k.val = k.val; omega
  rw [he, V_main_v1]
  exact shapeCast_a_1a_apply _ _ 0 k

theorem V_main_v2 : V m c main_v2 = shapeCast S1x128 (m ((c : Thread nD τ).loc main_arg7)) shapeCasts_S128_S1x128 := by
  show StableHlo.after hostOps0 (fun b => m (c, b)) (Proc.devRef .tc main_v2) = _
  after_results
  rfl

theorem bt1B_apply (t : Fin cfg0.N) (k : Fin 128) : bt1B m c t (ix2 0 k) = aBt1 m c (ix1 k) := by
  unfold bt1B Gen.iblk
  show V m c main_v2 (((cfg0.win 7).blk t).view.emb (ix2 0 k)) = _
  have he : ((cfg0.win 7).blk t).view.emb (ix2 0 k) = ix2 (0 : Fin 1) k := by
    obtain ⟨e0, e1⟩ := idx7 t
    funext a; apply Fin.ext
    match a with
    | ⟨0, _⟩ => show win0_7.index t (0 : Fin 2) * 1 + 1 * 0 = 0; omega
    | ⟨1, _⟩ => show win0_7.index t (1 : Fin 2) * 128 + 1 * k.val = k.val; omega
  rw [he, V_main_v2]
  exact shapeCast_a_1a_apply _ _ 0 k

theorem V_main_v3 : V m c main_v3 = shapeCast S1x1 (m ((c : Thread nD τ).loc main_arg9)) shapeCasts_S1_S1x1 := by
  show StableHlo.after hostOps0 (fun b => m (c, b)) (Proc.devRef .tc main_v3) = _
  after_results
  rfl

theorem bt2B_apply (t : Fin cfg0.N) : bt2B m c t (ix2 0 0) = aBt2 m c (ix1 0) := by
  unfold bt2B Gen.iblk
  show V m c main_v3 (((cfg0.win 9).blk t).view.emb (ix2 0 0)) = _
  have he : ((cfg0.win 9).blk t).view.emb (ix2 0 0) = ix2 (0 : Fin 1) (0 : Fin 1) := by
    obtain ⟨e0, e1⟩ := idx9 t
    funext a; apply Fin.ext
    match a with
    | ⟨0, _⟩ => show win0_9.index t (0 : Fin 2) * 1 + 1 * 0 = 0; omega
    | ⟨1, _⟩ => show win0_9.index t (1 : Fin 2) * 1 + 1 * 0 = 0; omega
  rw [he, V_main_v3]
  exact shapeCast_a_1a_apply _ _ 0 0

theorem V_main_v4 : V m c main_v4 = shapeCast S1x1 (m ((c : Thread nD τ).loc main_arg11)) shapeCasts_S1_S1x1 := by
  show StableHlo.after hostOps0 (fun b => m (c, b)) (Proc.devRef .tc main_v4) = _
  after_results
  rfl

theorem bpB_apply (t : Fin cfg0.N) : bpB m c t (ix2 0 0) = aBp m c (ix1 0) := by
  unfold bpB Gen.iblk
  show V m c main_v4 (((cfg0.win 11).blk t).view.emb (ix2 0 0)) = _
  have he : ((cfg0.win 11).blk t).view.emb (ix2 0 0) = ix2 (0 : Fin 1) (0 : Fin 1) := by
    obtain ⟨e0, e1⟩ := idx11 t
    funext a; apply Fin.ext
    match a with
    | ⟨0, _⟩ => show win0_11.index t (0 : Fin 2) * 1 + 1 * 0 = 0; omega
    | ⟨1, _⟩ => show win0_11.index t (1 : Fin 2) * 1 + 1 * 0 = 0; omega
  rw [he, V_main_v4]
  exact shapeCast_a_1a_apply _ _ 0 0

/-! ### The kernel's contents are the specification's formulas -/

/-- The adjacency block's row `y` at a point is the adjacency's row `r` when `r` is row `y` of the point's band. -/
theorem adjB_row (t : Fin cfg0.N) (y : Fin 400) (k : Fin 10000) (r : Fin 10000) (hr : r.val = 400 * (t.val % 25) + y.val) :
    adjB m c t (ix2 y k) = aAdj m c (ix2 r k) := by
  rw [adjB_apply]
  exact congrArg (fun q : Fin 10000 => aAdj m c (ix2 q k)) (Fin.ext hr.symm)

/-- The projected input features. -/
theorem S1_eq (r : Fin 10000) (k : Fin 128) : Hand.S1 (F := Ideal) m c (ix2 r k) = Cert.Spec.s1 (aX m c) (aW1 m c) r k := by
  unfold Hand.S1
  rw [Cert.KIPay.pay1_apply, xB_eq, w1B_eq]
  rfl

/-- The first layer: row `r` lies in band `r / 400` at row `r % 400` of it. -/
theorem H1_eq (r : Fin 10000) (k : Fin 128) :
    H1 (F := Ideal) m c (ix2 r k) = Cert.Spec.h1 (aX m c) (aAdj m c) (aW1 m c) (aB1 m c) r k := by
  have hr := r.isLt
  show k0_pay4 (F := Ideal) (adjB m c (bandPt r.val r.isLt)) (Hand.S1 m c) (b1B m c (bandPt r.val r.isLt))
    (ix2 (⟨r.val % 400, Nat.mod_lt _ (by decide)⟩ : Fin 400) k) = _
  rw [Cert.KIPay.pay4_apply, b1B_apply]
  unfold Cert.Spec.h1
  refine congrArg (fun s => max (s + aB1 m c (ix1 k)) 0) ?_
  refine Finset.sum_congr rfl fun k' _ => ?_
  rw [adjB_row m c _ _ k' r (by show r.val = 400 * ((r.val / 400) % 25) + r.val % 400; omega), S1_eq]

/-- The first layer projected by the second weight. -/
theorem S2_eq (r : Fin 10000) (k : Fin 128) :
    S2 (F := Ideal) m c (ix2 r k) = Cert.Spec.s2 (aX m c) (aAdj m c) (aW1 m c) (aB1 m c) (aW2 m c) r k := by
  unfold S2
  rw [Cert.KIPay.pay2_apply, w2B_eq]
  unfold Cert.Spec.s2
  refine Finset.sum_congr rfl fun k' _ => ?_
  rw [H1_eq]

/-- A point of the second phase is below fifty, so its band is its number less twenty-five. -/
theorem band_of_phase1 (t : Fin cfg0.N) (ht : 25 ≤ t.val) : t.val % 25 = t.val - 25 := by
  have h : t.val < cfg0.N := t.isLt
  have e : cfg0.N = 50 := N_0
  omega

/-- The band of the representation a point of the second phase forms. -/
theorem repBand_eq (t : Fin cfg0.N) (ht : 25 ≤ t.val) (y : Fin 400) (k : Fin 128) (r : Fin 10000)
    (hr : r.val = 400 * (t.val - 25) + y.val) :
    repBand (F := Ideal) m c t (ix2 y k) = Cert.Spec.rep (aX m c) (aAdj m c) (aW1 m c) (aB1 m c) (aW2 m c) (aB2 m c) r k := by
  unfold repBand
  rw [Cert.KIPay.pay5_apply, b2B_apply]
  unfold Cert.Spec.rep
  refine congrArg (fun s => max (s + aB2 m c (ix1 k)) 0) ?_
  refine Finset.sum_congr rfl fun k' _ => ?_
  rw [adjB_row m c t y k' r (by rw [band_of_phase1 t ht]; exact hr), S2_eq]

/-- The band of the effect head. -/
theorem tauBand_eq (t : Fin cfg0.N) (ht : 25 ≤ t.val) (y : Fin 400) (r : Fin 10000)
    (hr : r.val = 400 * (t.val - 25) + y.val) :
    tauBand (F := Ideal) m c t (ix2 y 0) = Cert.Spec.tau (aX m c) (aAdj m c) (aW1 m c) (aB1 m c) (aW2 m c) (aB2 m c) (aWt1 m c) (aBt1 m c) (aWt2 m c) (aBt2 m c) r := by
  unfold tauBand
  rw [Cert.KIPay.pay6_apply, bt2B_apply, wt1B_eq, wt2B_eq]
  unfold Cert.Spec.tau Cert.Spec.hid
  refine congrArg (fun s => s + aBt2 m c (ix1 0)) ?_
  refine Finset.sum_congr rfl fun k _ => ?_
  rw [bt1B_apply]
  refine congrArg (fun s => max (s + aBt1 m c (ix1 k)) 0 * aWt2 m c (ix2 k 0)) ?_
  refine Finset.sum_congr rfl fun k' _ => ?_
  exact congrArg (fun v => v * aWt1 m c (ix2 k' k)) (repBand_eq m c t ht y k' r hr)

/-- The band of the propensity head. -/
theorem eBand_eq (t : Fin cfg0.N) (ht : 25 ≤ t.val) (y : Fin 400) (r : Fin 10000)
    (hr : r.val = 400 * (t.val - 25) + y.val) :
    eBand (F := Ideal) m c t (ix2 y 0) = Cert.Spec.prop (aX m c) (aAdj m c) (aW1 m c) (aB1 m c) (aW2 m c) (aB2 m c) (aWp m c) (aBp m c) r := by
  unfold eBand
  rw [Cert.KIPay.pay7_apply, bpB_apply, wpB_eq]
  unfold Cert.Spec.prop
  refine congrArg (fun s => Ideal.logistic (s + aBp m c (ix1 0))) ?_
  refine Finset.sum_congr rfl fun k' _ => ?_
  exact congrArg (fun v => v * aWp m c (ix2 k' 0)) (repBand_eq m c t ht y k' r hr)

end Cert.KernelIdeal.HandValue

end
-- ==== Proof.KIFinal.lean ====
import proofs.«134749_g33749853012156_cont_8to1_b_320_18_alg».proof.Proof.KIBody
import proofs.«134749_g33749853012156_cont_8to1_b_320_18_alg».proof.Proof.KIValue
import Idealize.ShloMosaic.Lib.Pipeline.Value
import Idealize.ShloMosaic.Lib.StableHlo.Run
import Idealize.ShloMosaic.Lib.ValueLayout

/-!
  From the frame run to the kernel's results as the formulas of `Cert.Spec`.

  The three output windows write back exactly at the points of the second phase, point `t` writing band `t - 25`
  (both decided once over the fifty points). What point `t` writes back is its band of the representation and of the
  two heads, which by the block equations is that band of the specification's array; the bands of the twenty-five
  points tile the rows, row `r` lying in the band of point `25 + r / 400`, so each output array ends holding the
  specification's array. The host lines after the region reshape the two one-column results to vectors (a one-column
  array read at its column) and form the zero constant. The twelve arguments are read off the frame run as the
  generated frame does.
-/

set_option maxRecDepth 16384

noncomputable section

namespace Cert.KernelIdeal.HandValue

open Cert.KernelIdeal Cert.KernelIdeal.Gen Cert.KernelIdeal.Hand Idealize.ShloMosaic Idealize.ShloMosaic.ValueIdx
  Idealize.ShloMosaic.TcCoe Idealize.SL.Sem

section Pieces

variable (m : (ℓ : Loc nD τ sig) → Buf (Elt Ideal) ℓ) (c : Dev nD)

/-! ### Where the output windows write back, and which block -/

theorem flush12 : ∀ t : Fin cfg0.N, win0_12.flush t = true ↔ 25 ≤ t.val :=
  (by decide +kernel : ∀ t : Fin grid0.N, win0_12.flush t = true ↔ 25 ≤ t.val)
theorem oidx12 : ∀ t : Fin cfg0.N, 25 ≤ t.val → win0_12.index t (0 : Fin 2) = t.val - 25 ∧ win0_12.index t (1 : Fin 2) = 0 :=
  (by decide +kernel : ∀ t : Fin grid0.N, 25 ≤ t.val → win0_12.index t (0 : Fin 2) = t.val - 25 ∧ win0_12.index t (1 : Fin 2) = 0)

/-- The representation as an array. -/
def G12 : Buf (Elt Ideal) ((c.tc : Thread nD τ).loc main_v5_0) :=
  fun j => Cert.Spec.rep (aX m c) (aAdj m c) (aW1 m c) (aB1 m c) (aW2 m c) (aB2 m c) (j 0) (j 1)

theorem flushed12_at (t : Fin cfg0.N) (ht : 25 ≤ t.val) (y : S400x128.Idx) :
    repBand (F := Ideal) m c t y = G12 m c (((cfg0.win 12).blk t).view.emb y) := by
  obtain ⟨p, q, rfl⟩ : ∃ p q, y = ix2 p q := ⟨y 0, y 1, eq_ix2 y⟩
  have hN : t.val < 50 := by have h : t.val < cfg0.N := t.isLt; have e : cfg0.N = 50 := N_0; omega
  have hp := p.isLt
  rw [repBand_eq m c t ht p q ⟨400 * (t.val - 25) + p.val, by omega⟩ rfl]
  obtain ⟨e0, e1⟩ := oidx12 t ht
  have he : ((cfg0.win 12).blk t).view.emb (ix2 p q) = ix2 (⟨400 * (t.val - 25) + p.val, by omega⟩ : Fin 10000) q := by
    funext a; apply Fin.ext
    match a with
    | ⟨0, _⟩ => show win0_12.index t (0 : Fin 2) * 400 + 1 * p.val = 400 * (t.val - 25) + p.val; omega
    | ⟨1, _⟩ => show win0_12.index t (1 : Fin 2) * 128 + 1 * q.val = q.val; omega
  rw [he]
  rfl

theorem flushed12 (t : Fin cfg0.N) (hf : (cfg0.win 12).flush t = true) :
    (dats m 0 c).flushed 12 t = ((cfg0.win 12).blk t).view.read (Elt Ideal) (G12 m c) := by
  have ht : 25 ≤ t.val := (flush12 t).mp hf
  show (cfg0.win 12).cut (grid0.coords t) ((dats m 0 c).after 12 t) = _
  rw [after_12]
  funext y
  exact flushed12_at m c t ht y

theorem final12 : (dats m 0 c).arrAt 12 cfg0.N = G12 m c :=
  (dats m 0 c).arrAt_eq_of_cover 12 (G12 m c) (flushed12 m c) fun i => by
    have h0 : (i 0 : Nat) < 10000 := (i 0).isLt
    have h1 : (i 1 : Nat) < 128 := (i 1).isLt
    have e : cfg0.N = 50 := N_0
    let t : Fin cfg0.N := ⟨25 + (i 0 : Nat) / 400, by omega⟩
    have ht : 25 ≤ t.val := Nat.le_add_right _ _
    refine ⟨t, (flush12 t).mpr ht, ?_⟩
    obtain ⟨e0, e1⟩ := oidx12 t ht
    show i ∈ ((View.whole main_v5_0).slice (win0_12.rect t)).set
    rw [View.set_slice_whole, Rect.mem_set_unit]
    intro a
    match a with
    | ⟨0, _⟩ =>
      show win0_12.index t (0 : Fin 2) * 400 ≤ (i 0 : Nat) ∧ (i 0 : Nat) < win0_12.index t (0 : Fin 2) * 400 + 400
      rw [e0]; show (25 + (i 0 : Nat) / 400 - 25) * 400 ≤ (i 0 : Nat) ∧ (i 0 : Nat) < (25 + (i 0 : Nat) / 400 - 25) * 400 + 400
      omega
    | ⟨1, _⟩ =>
      show win0_12.index t (1 : Fin 2) * 128 ≤ (i 1 : Nat) ∧ (i 1 : Nat) < win0_12.index t (1 : Fin 2) * 128 + 128
      rw [e1]; omega

theorem flush13 : ∀ t : Fin cfg0.N, win0_13.flush t = true ↔ 25 ≤ t.val :=
  (by decide +kernel : ∀ t : Fin grid0.N, win0_13.flush t = true ↔ 25 ≤ t.val)
theorem oidx13 : ∀ t : Fin cfg0.N, 25 ≤ t.val → win0_13.index t (0 : Fin 2) = t.val - 25 ∧ win0_13.index t (1 : Fin 2) = 0 :=
  (by decide +kernel : ∀ t : Fin grid0.N, 25 ≤ t.val → win0_13.index t (0 : Fin 2) = t.val - 25 ∧ win0_13.index t (1 : Fin 2) = 0)

/-- The effect head as a one-column array. -/
def G13 : Buf (Elt Ideal) ((c.tc : Thread nD τ).loc main_v5_1) :=
  fun j => Cert.Spec.tau (aX m c) (aAdj m c) (aW1 m c) (aB1 m c) (aW2 m c) (aB2 m c) (aWt1 m c) (aBt1 m c) (aWt2 m c) (aBt2 m c) (j 0)

theorem flushed13_at (t : Fin cfg0.N) (ht : 25 ≤ t.val) (y : S400x1.Idx) :
    tauBand (F := Ideal) m c t y = G13 m c (((cfg0.win 13).blk t).view.emb y) := by
  obtain ⟨p, q, rfl⟩ : ∃ p q, y = ix2 p q := ⟨y 0, y 1, eq_ix2 y⟩
  obtain rfl : q = 0 := Subsingleton.elim _ _
  have hN : t.val < 50 := by have h : t.val < cfg0.N := t.isLt; have e : cfg0.N = 50 := N_0; omega
  have hp := p.isLt
  rw [tauBand_eq m c t ht p ⟨400 * (t.val - 25) + p.val, by omega⟩ rfl]
  obtain ⟨e0, e1⟩ := oidx13 t ht
  have he : ((cfg0.win 13).blk t).view.emb (ix2 p 0) = ix2 (⟨400 * (t.val - 25) + p.val, by omega⟩ : Fin 10000) (0 : Fin 1) := by
    funext a; apply Fin.ext
    match a with
    | ⟨0, _⟩ => show win0_13.index t (0 : Fin 2) * 400 + 1 * p.val = 400 * (t.val - 25) + p.val; omega
    | ⟨1, _⟩ => show win0_13.index t (1 : Fin 2) * 1 + 1 * 0 = 0; omega
  rw [he]
  rfl

theorem flushed13 (t : Fin cfg0.N) (hf : (cfg0.win 13).flush t = true) :
    (dats m 0 c).flushed 13 t = ((cfg0.win 13).blk t).view.read (Elt Ideal) (G13 m c) := by
  have ht : 25 ≤ t.val := (flush13 t).mp hf
  show (cfg0.win 13).cut (grid0.coords t) ((dats m 0 c).after 13 t) = _
  rw [after_13]
  funext y
  exact flushed13_at m c t ht y

theorem final13 : (dats m 0 c).arrAt 13 cfg0.N = G13 m c :=
  (dats m 0 c).arrAt_eq_of_cover 13 (G13 m c) (flushed13 m c) fun i => by
    have h0 : (i 0 : Nat) < 10000 := (i 0).isLt
    have h1 : (i 1 : Nat) < 1 := (i 1).isLt
    have e : cfg0.N = 50 := N_0
    let t : Fin cfg0.N := ⟨25 + (i 0 : Nat) / 400, by omega⟩
    have ht : 25 ≤ t.val := Nat.le_add_right _ _
    refine ⟨t, (flush13 t).mpr ht, ?_⟩
    obtain ⟨e0, e1⟩ := oidx13 t ht
    show i ∈ ((View.whole main_v5_1).slice (win0_13.rect t)).set
    rw [View.set_slice_whole, Rect.mem_set_unit]
    intro a
    match a with
    | ⟨0, _⟩ =>
      show win0_13.index t (0 : Fin 2) * 400 ≤ (i 0 : Nat) ∧ (i 0 : Nat) < win0_13.index t (0 : Fin 2) * 400 + 400
      rw [e0]; show (25 + (i 0 : Nat) / 400 - 25) * 400 ≤ (i 0 : Nat) ∧ (i 0 : Nat) < (25 + (i 0 : Nat) / 400 - 25) * 400 + 400
      omega
    | ⟨1, _⟩ =>
      show win0_13.index t (1 : Fin 2) * 1 ≤ (i 1 : Nat) ∧ (i 1 : Nat) < win0_13.index t (1 : Fin 2) * 1 + 1
      rw [e1]; omega

theorem flush14 : ∀ t : Fin cfg0.N, win0_14.flush t = true ↔ 25 ≤ t.val :=
  (by decide +kernel : ∀ t : Fin grid0.N, win0_14.flush t = true ↔ 25 ≤ t.val)
theorem oidx14 : ∀ t : Fin cfg0.N, 25 ≤ t.val → win0_14.index t (0 : Fin 2) = t.val - 25 ∧ win0_14.index t (1 : Fin 2) = 0 :=
  (by decide +kernel : ∀ t : Fin grid0.N, 25 ≤ t.val → win0_14.index t (0 : Fin 2) = t.val - 25 ∧ win0_14.index t (1 : Fin 2) = 0)

/-- The propensity head as a one-column array. -/
def G14 : Buf (Elt Ideal) ((c.tc : Thread nD τ).loc main_v5_2) :=
  fun j => Cert.Spec.prop (aX m c) (aAdj m c) (aW1 m c) (aB1 m c) (aW2 m c) (aB2 m c) (aWp m c) (aBp m c) (j 0)

theorem flushed14_at (t : Fin cfg0.N) (ht : 25 ≤ t.val) (y : S400x1.Idx) :
    eBand (F := Ideal) m c t y = G14 m c (((cfg0.win 14).blk t).view.emb y) := by
  obtain ⟨p, q, rfl⟩ : ∃ p q, y = ix2 p q := ⟨y 0, y 1, eq_ix2 y⟩
  obtain rfl : q = 0 := Subsingleton.elim _ _
  have hN : t.val < 50 := by have h : t.val < cfg0.N := t.isLt; have e : cfg0.N = 50 := N_0; omega
  have hp := p.isLt
  rw [eBand_eq m c t ht p ⟨400 * (t.val - 25) + p.val, by omega⟩ rfl]
  obtain ⟨e0, e1⟩ := oidx14 t ht
  have he : ((cfg0.win 14).blk t).view.emb (ix2 p 0) = ix2 (⟨400 * (t.val - 25) + p.val, by omega⟩ : Fin 10000) (0 : Fin 1) := by
    funext a; apply Fin.ext
    match a with
    | ⟨0, _⟩ => show win0_14.index t (0 : Fin 2) * 400 + 1 * p.val = 400 * (t.val - 25) + p.val; omega
    | ⟨1, _⟩ => show win0_14.index t (1 : Fin 2) * 1 + 1 * 0 = 0; omega
  rw [he]
  rfl

theorem flushed14 (t : Fin cfg0.N) (hf : (cfg0.win 14).flush t = true) :
    (dats m 0 c).flushed 14 t = ((cfg0.win 14).blk t).view.read (Elt Ideal) (G14 m c) := by
  have ht : 25 ≤ t.val := (flush14 t).mp hf
  show (cfg0.win 14).cut (grid0.coords t) ((dats m 0 c).after 14 t) = _
  rw [after_14]
  funext y
  exact flushed14_at m c t ht y

theorem final14 : (dats m 0 c).arrAt 14 cfg0.N = G14 m c :=
  (dats m 0 c).arrAt_eq_of_cover 14 (G14 m c) (flushed14 m c) fun i => by
    have h0 : (i 0 : Nat) < 10000 := (i 0).isLt
    have h1 : (i 1 : Nat) < 1 := (i 1).isLt
    have e : cfg0.N = 50 := N_0
    let t : Fin cfg0.N := ⟨25 + (i 0 : Nat) / 400, by omega⟩
    have ht : 25 ≤ t.val := Nat.le_add_right _ _
    refine ⟨t, (flush14 t).mpr ht, ?_⟩
    obtain ⟨e0, e1⟩ := oidx14 t ht
    show i ∈ ((View.whole main_v5_2).slice (win0_14.rect t)).set
    rw [View.set_slice_whole, Rect.mem_set_unit]
    intro a
    match a with
    | ⟨0, _⟩ =>
      show win0_14.index t (0 : Fin 2) * 400 ≤ (i 0 : Nat) ∧ (i 0 : Nat) < win0_14.index t (0 : Fin 2) * 400 + 400
      rw [e0]; show (25 + (i 0 : Nat) / 400 - 25) * 400 ≤ (i 0 : Nat) ∧ (i 0 : Nat) < (25 + (i 0 : Nat) / 400 - 25) * 400 + 400
      omega
    | ⟨1, _⟩ =>
      show win0_14.index t (1 : Fin 2) * 1 ≤ (i 1 : Nat) ∧ (i 1 : Nat) < win0_14.index t (1 : Fin 2) * 1 + 1
      rw [e1]; omega

/-! ### The host lines after the region -/

/-- A one-column array reshaped to a vector reads its column. -/
theorem col_reshape (G : S10000x1.Idx → Ideal .f32) (j : S10000.Idx) :
    shapeCast S10000 G shapeCasts_S10000x1_S10000 j = G (ix2 (j 0 : Fin 10000) (0 : Fin 1)) :=
  shapeCast_apply G _ j _ (by
    rw [Shape.rowMajor_val_two, Shape.rowMajor_val_one]
    show (j 0).val * 1 + 0 = (j 0).val
    omega)

theorem tail_v6 : Pipeline.afterTail₀ cfgs (dats m) 0 (V0 m) [hostOps1] c main_v6
    = fun j => Cert.Spec.tau (aX m c) (aAdj m c) (aW1 m c) (aB1 m c) (aW2 m c) (aB2 m c) (aWt1 m c) (aBt1 m c) (aWt2 m c) (aBt2 m c) (j 0) := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 13).trans (final13 m c)
  show shapeCast S10000 _ shapeCasts_S10000x1_S10000 = _
  refine (congrArg (fun A : S10000x1.Idx → Ideal .f32 => shapeCast S10000 A shapeCasts_S10000x1_S10000) e).trans ?_
  funext j
  rw [col_reshape]
  rfl

theorem tail_v7 : Pipeline.afterTail₀ cfgs (dats m) 0 (V0 m) [hostOps1] c main_v7
    = fun j => Cert.Spec.prop (aX m c) (aAdj m c) (aW1 m c) (aB1 m c) (aW2 m c) (aB2 m c) (aWp m c) (aBp m c) (j 0) := by
  unfold Pipeline.afterTail₀
  show StableHlo.after hostOps1 _ (Proc.devRef .tc main_v7) = _
  after_results
  have e := (Pipeline.withArrays_arr spec0 launch0.win.arr_inj c (V0 m c) (fun w => (dats m 0 c).arrAt w cfg0.N) 14).trans (final14 m c)
  show shapeCast S10000 _ shapeCasts_S10000x1_S10000 = _
  refine (congrArg (fun A : S10000x1.Idx → Ideal .f32 => shapeCast S10000 A shapeCasts_S10000x1_S10000) e).trans ?_
  funext j
  rw [col_reshape]
  rfl

theorem tail_v8 : Pipeline.afterTail₀ cfgs (dats m) 0 (V0 m) [hostOps1] c main_v8
    = broadcastInDim S10000 ![] bcast_S_S10000 (constant (F := Ideal) S_ .f32 0x00000000#32) := by
  unfold Pipeline.afterTail₀
  show StableHlo.after hostOps1 _ (Proc.devRef .tc main_v8) = _
  after_results

end Pieces

/-- THE KERNEL'S RUN, READ: every weakly fair execution terminates; the three results and the constant the program
    returns hold the specification's formulas of the launched arrays, and the twelve arguments are unchanged. -/
theorem kernel_run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
        r.2.mem ((c.tc : Thread nD τ).loc main_v7) = (fun j => Cert.Spec.prop (aX m c) (aAdj m c) (aW1 m c) (aB1 m c) (aW2 m c) (aB2 m c) (aWp m c) (aBp m c) (j 0))
        ∧ r.2.mem ((c.tc : Thread nD τ).loc main_v8) = broadcastInDim S10000 ![] bcast_S_S10000 (constant (F := Ideal) S_ .f32 0x00000000#32)
        ∧ r.2.mem ((c.tc : Thread nD τ).loc main_v6) = (fun j => Cert.Spec.tau (aX m c) (aAdj m c) (aW1 m c) (aB1 m c) (aW2 m c) (aB2 m c) (aWt1 m c) (aBt1 m c) (aWt2 m c) (aBt2 m c) (j 0))
        ∧ r.2.mem ((c.tc : Thread nD τ).loc main_v5_0) = (fun j => Cert.Spec.rep (aX m c) (aAdj m c) (aW1 m c) (aB1 m c) (aW2 m c) (aB2 m c) (j 0) (j 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  (θ_run defs _ _).mono (fun _ h c =>
    ⟨((h c).2 main_v7 (Pipeline.mem_restRefs_of main_v7 (by decide) (by decide))).trans (tail_v7 m c),
      ((h c).2 main_v8 (Pipeline.mem_restRefs_of main_v8 (by decide) (by decide))).trans (tail_v8 m c),
      ((h c).2 main_v6 (Pipeline.mem_restRefs_of main_v6 (by decide) (by decide))).trans (tail_v6 m c),
      ((h c).1 12).trans (final12 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c)⟩)
    (run_main (F := Ideal) m ρ)

end Cert.KernelIdeal.HandValue

end
-- ==== Proof.RefSpec.lean ====
import proofs.«134749_g33749853012156_cont_8to1_b_320_18_alg».proof.Proof.Gen.ReferenceIdeal.Read
import proofs.«134749_g33749853012156_cont_8to1_b_320_18_alg».proof.Proof.Spec
import Idealize.ShloMosaic.Lib.IdealHost

/-!
  The reference program, stage by stage, is the entry-by-entry mathematics of `Cert.Spec`.

  Each stage of the reference is read at an index: a contraction is the sum over the contracted axis of the products of
  the operands' entries, a broadcast bias is the bias at the column, the rectifier is the maximum with zero, the final
  reshape forgets the axis of extent one, and the logistic head, which the reference spells as one over one plus the
  exponential of the negation, is the logistic function by its definition. The composed index functions are coordinate
  tuples, so each stage agrees with the specification term by term and no law of the extended reals is used.
-/

noncomputable section

namespace Cert.RefSpec

open Cert.ReferenceIdeal Cert.ReferenceIdeal.Read Idealize.ShloMosaic Idealize.ShloMosaic.ValueIdx

/-! ### The composed index functions are coordinate tuples -/

theorem lidx0 (i : S10000x128.Idx) (k : Fin 128) : lidx_main_v0 i k = ix2 (i 0 : Fin 10000) (k : Fin 128) :=
  funext fun a => Fin.ext (by match a with | ⟨0, _⟩ => rfl | ⟨1, _⟩ => rfl)
theorem ridx0 (i : S10000x128.Idx) (k : Fin 128) : ridx_main_v0 i k = ix2 (k : Fin 128) (i 1 : Fin 128) :=
  funext fun a => Fin.ext (by match a with | ⟨0, _⟩ => rfl | ⟨1, _⟩ => rfl)
theorem lidx6 (i : S10000x128.Idx) (k : Fin 128) : lidx_main_v6 i k = ix2 (i 0 : Fin 10000) (k : Fin 128) :=
  funext fun a => Fin.ext (by match a with | ⟨0, _⟩ => rfl | ⟨1, _⟩ => rfl)
theorem ridx6 (i : S10000x128.Idx) (k : Fin 128) : ridx_main_v6 i k = ix2 (k : Fin 128) (i 1 : Fin 128) :=
  funext fun a => Fin.ext (by match a with | ⟨0, _⟩ => rfl | ⟨1, _⟩ => rfl)
theorem lidx12 (i : S10000x128.Idx) (k : Fin 128) : lidx_main_v12 i k = ix2 (i 0 : Fin 10000) (k : Fin 128) :=
  funext fun a => Fin.ext (by match a with | ⟨0, _⟩ => rfl | ⟨1, _⟩ => rfl)
theorem ridx12 (i : S10000x128.Idx) (k : Fin 128) : ridx_main_v12 i k = ix2 (k : Fin 128) (i 1 : Fin 128) :=
  funext fun a => Fin.ext (by match a with | ⟨0, _⟩ => rfl | ⟨1, _⟩ => rfl)
theorem lidx1 (i : S10000x128.Idx) (k : Fin 10000) : lidx_main_v1 i k = ix2 (i 0 : Fin 10000) (k : Fin 10000) :=
  funext fun a => Fin.ext (by match a with | ⟨0, _⟩ => rfl | ⟨1, _⟩ => rfl)
theorem ridx1 (i : S10000x128.Idx) (k : Fin 10000) : ridx_main_v1 i k = ix2 (k : Fin 10000) (i 1 : Fin 128) :=
  funext fun a => Fin.ext (by match a with | ⟨0, _⟩ => rfl | ⟨1, _⟩ => rfl)
theorem lidx7 (i : S10000x128.Idx) (k : Fin 10000) : lidx_main_v7 i k = ix2 (i 0 : Fin 10000) (k : Fin 10000) :=
  funext fun a => Fin.ext (by match a with | ⟨0, _⟩ => rfl | ⟨1, _⟩ => rfl)
theorem ridx7 (i : S10000x128.Idx) (k : Fin 10000) : ridx_main_v7 i k = ix2 (k : Fin 10000) (i 1 : Fin 128) :=
  funext fun a => Fin.ext (by match a with | ⟨0, _⟩ => rfl | ⟨1, _⟩ => rfl)
theorem bidx3 (i : S10000x128.Idx) : idx_main_v2 (idx_main_v3 i) = ix1 (i 1 : Fin 128) :=
  funext fun a => Fin.ext (by match a with | ⟨0, _⟩ => rfl)
theorem bidx9 (i : S10000x128.Idx) : idx_main_v8 (idx_main_v9 i) = ix1 (i 1 : Fin 128) :=
  funext fun a => Fin.ext (by match a with | ⟨0, _⟩ => rfl)
theorem bidx14 (i : S10000x128.Idx) : idx_main_v13 (idx_main_v14 i) = ix1 (i 1 : Fin 128) :=
  funext fun a => Fin.ext (by match a with | ⟨0, _⟩ => rfl)
theorem lidx17 (i : S10000.Idx) (k : Fin 128) : lidx_main_v17 (idx_main_v21 i) k = ix2 (i 0 : Fin 10000) (k : Fin 128) :=
  funext fun a => Fin.ext (by
    match a with
    | ⟨0, _⟩ => exact Nat.div_one _
    | ⟨1, _⟩ => rfl)
theorem ridx17 (i : S10000.Idx) (k : Fin 128) : ridx_main_v17 (idx_main_v21 i) k = ix2 (k : Fin 128) (0 : Fin 1) :=
  funext fun a => Fin.ext (by match a with | ⟨0, _⟩ => rfl | ⟨1, _⟩ => rfl)
theorem bidx19 (i : S10000.Idx) : idx_main_v18 (idx_main_v19 (idx_main_v21 i)) = ix1 (0 : Fin 1) :=
  funext fun a => Fin.ext (by match a with | ⟨0, _⟩ => rfl)
theorem lidx22 (i : S10000.Idx) (k : Fin 128) : lidx_main_v22 (idx_main_v26 i) k = ix2 (i 0 : Fin 10000) (k : Fin 128) :=
  funext fun a => Fin.ext (by
    match a with
    | ⟨0, _⟩ => exact Nat.div_one _
    | ⟨1, _⟩ => rfl)
theorem ridx22 (i : S10000.Idx) (k : Fin 128) : ridx_main_v22 (idx_main_v26 i) k = ix2 (k : Fin 128) (0 : Fin 1) :=
  funext fun a => Fin.ext (by match a with | ⟨0, _⟩ => rfl | ⟨1, _⟩ => rfl)
theorem bidx24 (i : S10000.Idx) : idx_main_v23 (idx_main_v24 (idx_main_v26 i)) = ix1 (0 : Fin 1) :=
  funext fun a => Fin.ext (by match a with | ⟨0, _⟩ => rfl)

/-! ### The stages -/

/-- The projected input features. -/
theorem ref_s1 (x0 : (⟨S10000x128, .f32⟩ : BufTy).Contents (Elt Ideal)) (x2 : (⟨S128x128, .f32⟩ : BufTy).Contents (Elt Ideal)) :
    val_main_v0 (F := Ideal) x0 x2 = fun j => Cert.Spec.s1 x0 x2 (j 0) (j 1) := by
  funext j
  rw [val_main_v0_apply]
  simp only [lidx0, ridx0]
  rfl

/-- The first layer. -/
theorem ref_h1 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = fun j => Cert.Spec.h1 x0 x1 x2 x3 (j 0) (j 1) := by
  funext j
  rw [val_main_v5_apply, val_main_v4_apply, val_main_v1_apply, val_main_v3_apply, val_main_v2_apply,
    val_main_call0_v0_apply, val_main_call0_cst_apply, ref_s1]
  simp only [lidx1, ridx1, bidx3, Ideal.maximumf_def, Ideal.addf_def, Ideal.ofBits_def, Ideal.ofBits_zero_f32]
  rfl

/-- The first layer projected by the second weight. -/
theorem ref_s2 (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v6 (F := Ideal) x0 x1 x2 x3 x4 = fun j => Cert.Spec.s2 x0 x1 x2 x3 x4 (j 0) (j 1) := by
  funext j
  rw [val_main_v6_apply, ref_h1]
  simp only [lidx6, ridx6]
  rfl

/-- The second layer: the representation. -/
theorem ref_rep (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v11 (F := Ideal) x0 x1 x2 x3 x4 x5 = fun j => Cert.Spec.rep x0 x1 x2 x3 x4 x5 (j 0) (j 1) := by
  funext j
  rw [val_main_v11_apply, val_main_v10_apply, val_main_v7_apply, val_main_v9_apply, val_main_v8_apply,
    val_main_call1_v0_apply, val_main_call1_cst_apply, ref_s2]
  simp only [lidx7, ridx7, bidx9, Ideal.maximumf_def, Ideal.addf_def, Ideal.ofBits_def, Ideal.ofBits_zero_f32]
  rfl

/-- The hidden layer of the effect head. -/
theorem ref_hid (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v16 (F := Ideal) x0 x1 x2 x3 x4 x5 x6 x7 = fun j => Cert.Spec.hid x0 x1 x2 x3 x4 x5 x6 x7 (j 0) (j 1) := by
  funext j
  rw [val_main_v16_apply, val_main_v15_apply, val_main_v12_apply, val_main_v14_apply, val_main_v13_apply,
    val_main_call2_v0_apply, val_main_call2_cst_apply, ref_rep]
  simp only [lidx12, ridx12, bidx14, Ideal.maximumf_def, Ideal.addf_def, Ideal.ofBits_def, Ideal.ofBits_zero_f32]
  rfl

/-- The effect head's output. -/
theorem ref_tau (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) :
    val_main_v21 (F := Ideal) x0 x1 x2 x3 x4 x5 x6 x7 x8 x9
      = fun j => Cert.Spec.tau x0 x1 x2 x3 x4 x5 x6 x7 x8 x9 (j 0) := by
  funext j
  rw [val_main_v21_apply, val_main_v20_apply, val_main_v17_apply, val_main_v19_apply, val_main_v18_apply]
  simp only [lidx17, ridx17, bidx19, Ideal.addf_def]
  rw [ref_hid]
  rfl

/-- The propensity head: one over one plus the exponential of the negated read-out is the logistic function. -/
theorem ref_prop (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x1, .f32⟩ : BufTy).Contents (Elt Ideal)) (x11 : (⟨S1, .f32⟩ : BufTy).Contents (Elt Ideal)) :
    val_main_v32 (F := Ideal) x0 x1 x2 x3 x4 x5 x10 x11
      = fun j => Cert.Spec.prop x0 x1 x2 x3 x4 x5 x10 x11 (j 0) := by
  funext j
  rw [val_main_v32_apply, val_main_v31_apply, val_main_cst_0_apply, val_main_v30_apply, val_main_v29_apply,
    val_main_cst_apply, val_main_v28_apply, val_main_v27_apply, val_main_v26_apply, val_main_v25_apply,
    val_main_v22_apply, val_main_v24_apply, val_main_v23_apply]
  simp only [lidx22, ridx22, bidx24, Ideal.addf_def, Ideal.ofBits_def, Ideal.ofBits_one_f32, Ideal.hostDivf_def,
    Ideal.hostUnary_exp_def, Ideal.hostNegf_def, Ideal.negf_def]
  rw [ref_rep]
  rfl

end Cert.RefSpec

end
-- ==== Proof.lean ====
/-
  One Pallas call on a 2 × 25 grid against a plain jnp reference: two dense graph-convolution layers
  `h1 = max (adj · (x · W1) + b1) 0`, `rep = max (adj · (h1 · W2) + b2) 0`, a two-layer head
  `tau = max (rep · Wt1 + bt1) 0 · Wt2 + bt2` and a logistic head `e = logistic (rep · Wp + bp)`.

  The kernel forms `x · W1` once into a scratch, then the first layer band by band (400 adjacency rows a point) into a
  second scratch during phase 0; at the first point of phase 1 it forms `h1 · W2` into the first scratch, and then band by
  band the representation and the two heads into the outputs. The reference forms the same products whole. On the extended
  reals both are the same sums in the same association, the kernel's `logistic` is by definition the reference's
  `1 / (1 + exp (-z))`, and a matrix product into a zero accumulator is the product: so the two programs' results are equal
  entry by entry with no appeal to finiteness of the inputs.

  The frames of the two kernel programs: the body is run in its four shapes of point (first point of phase 0, later
  points of phase 0, first point of phase 1, later points of phase 1) against an invariant that names what the two scratch
  buffers hold after each point. The reference's frame is its run with the results dropped.
-/
import proofs.«134749_g33749853012156_cont_8to1_b_320_18_alg».proof.Defs
import proofs.«134749_g33749853012156_cont_8to1_b_320_18_alg».proof.Proof.Gen.Kernel
import proofs.«134749_g33749853012156_cont_8to1_b_320_18_alg».proof.Proof.Gen.KernelIdeal
import proofs.«134749_g33749853012156_cont_8to1_b_320_18_alg».proof.Proof.Gen.ReferenceIdeal
import proofs.«134749_g33749853012156_cont_8to1_b_320_18_alg».proof.Proof.Gen.Pre_finite_inputs
import proofs.«134749_g33749853012156_cont_8to1_b_320_18_alg».proof.Proof.Gen.ReferenceIdeal.Run
import proofs.«134749_g33749853012156_cont_8to1_b_320_18_alg».proof.Proof.Gen.ReferenceIdeal.Read
import proofs.«134749_g33749853012156_cont_8to1_b_320_18_alg».proof.Proof.KBody
import proofs.«134749_g33749853012156_cont_8to1_b_320_18_alg».proof.Proof.KIBody
import proofs.«134749_g33749853012156_cont_8to1_b_320_18_alg».proof.Proof.KIFinal
import proofs.«134749_g33749853012156_cont_8to1_b_320_18_alg».proof.Proof.RefSpec

noncomputable section

namespace Cert.Proof

open Idealize.ShloMosaic Idealize.ShloMosaic.TcCoe Idealize.SL.Sem

/-- The word-level kernel runs to the end, faults nowhere and leaves its arguments as they were. -/
theorem frame_k : Cert.frame_Kernel := fun m ρ _ =>
  Cert.Kernel.Gen.frame_of m ρ (Cert.Kernel.Hand.dats m) (Cert.Kernel.Hand.A_eq m) (Cert.Kernel.Hand.run_main m ρ)

/-- So does the idealized kernel. -/
theorem frame_ki : Cert.frame_KernelIdeal := fun m ρ _ =>
  Cert.KernelIdeal.Gen.frame_of m ρ (Cert.KernelIdeal.Hand.dats m) (Cert.KernelIdeal.Hand.A_eq m) (Cert.KernelIdeal.Hand.run_main m ρ)

/-- The reference's frame is its run with the eight results dropped. -/
theorem frame_ri : Cert.frame_ReferenceIdeal := fun m ρ _ =>
  (θ_run Cert.ReferenceIdeal.defs _ _).mono (fun _ h c => (h c).2.2.2.2.2.2.2.2) (Cert.ReferenceIdeal.Value.run (F := Ideal) m ρ)

open Cert.KernelIdeal.HandValue in
/-- Both programs end with the propensities, zeros, the effects (three times), zeros (twice) and the representation,
    each the same explicit function of the arguments. -/
theorem algebraic : Cert.algebraic_KernelIdeal_ReferenceIdeal := by
  intro m ρ m' ρ' _ hagree
  refine ⟨fun c => (fun j => Cert.Spec.prop (aX m c) (aAdj m c) (aW1 m c) (aB1 m c) (aW2 m c) (aB2 m c) (aWp m c) (aBp m c) (j 0)),
    fun c => broadcastInDim Cert.KernelIdeal.S10000 ![] Cert.KernelIdeal.Facts₀.bcast_S_S10000 (constant (F := Ideal) Cert.KernelIdeal.S_ .f32 0x00000000#32),
    fun c => (fun j => Cert.Spec.tau (aX m c) (aAdj m c) (aW1 m c) (aB1 m c) (aW2 m c) (aB2 m c) (aWt1 m c) (aBt1 m c) (aWt2 m c) (aBt2 m c) (j 0)),
    fun c => (fun j => Cert.Spec.tau (aX m c) (aAdj m c) (aW1 m c) (aB1 m c) (aW2 m c) (aB2 m c) (aWt1 m c) (aBt1 m c) (aWt2 m c) (aBt2 m c) (j 0)),
    fun c => (fun j => Cert.Spec.tau (aX m c) (aAdj m c) (aW1 m c) (aB1 m c) (aW2 m c) (aB2 m c) (aWt1 m c) (aBt1 m c) (aWt2 m c) (aBt2 m c) (j 0)),
    fun c => broadcastInDim Cert.KernelIdeal.S10000 ![] Cert.KernelIdeal.Facts₀.bcast_S_S10000 (constant (F := Ideal) Cert.KernelIdeal.S_ .f32 0x00000000#32),
    fun c => broadcastInDim Cert.KernelIdeal.S10000 ![] Cert.KernelIdeal.Facts₀.bcast_S_S10000 (constant (F := Ideal) Cert.KernelIdeal.S_ .f32 0x00000000#32),
    fun c => (fun j => Cert.Spec.rep (aX m c) (aAdj m c) (aW1 m c) (aB1 m c) (aW2 m c) (aB2 m c) (j 0) (j 1)), ?_, ?_⟩
  · exact (θ_run Cert.KernelIdeal.defs _ _).mono (fun r h c =>
      ⟨(h c).1, (h c).2.1, (h c).2.2.1, (h c).2.2.1, (h c).2.2.1, (h c).2.1, (h c).2.1, (h c).2.2.2.1, (h c).2.2.2.2⟩) (kernel_run m ρ)
  · refine (θ_run Cert.ReferenceIdeal.defs _ _).mono (fun r h c => ?_) (Cert.ReferenceIdeal.Value.run (F := Ideal) m' ρ')
    obtain ⟨h32, h33a, h21a, h21b, h21c, h33b, h33c, h11, hargs⟩ := h c
    obtain ⟨e0, e1, e2, e3, e4, e5, e6, e7, e8, e9, e10, e11⟩ := hagree c
    have hprop := h32.trans ((Cert.ReferenceIdeal.Read.val_main_v32_eq _ _ _ _ _ _ _ _).trans (Cert.RefSpec.ref_prop _ _ _ _ _ _ _ _))
    have htau := h21a.trans ((Cert.ReferenceIdeal.Read.val_main_v21_eq _ _ _ _ _ _ _ _ _ _).trans (Cert.RefSpec.ref_tau _ _ _ _ _ _ _ _ _ _))
    have hrep := h11.trans ((Cert.ReferenceIdeal.Read.val_main_v11_eq _ _ _ _ _ _).trans (Cert.RefSpec.ref_rep _ _ _ _ _ _))
    rw [e0, e1, e2, e3, e4, e5, e10, e11] at hprop
    rw [e0, e1, e2, e3, e4, e5, e6, e7, e8, e9] at htau
    rw [e0, e1, e2, e3, e4, e5] at hrep
    exact ⟨hprop, h33a, htau, htau, htau, h33a, h33a, hrep, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
